-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512 : Shape := ⟨1, ![512]⟩
abbrev S1024 : Shape := ⟨1, ![1024]⟩
abbrev S100000x64 : Shape := ⟨2, ![100000, 64]⟩
abbrev S50000x64 : Shape := ⟨2, ![50000, 64]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x144 : Shape := ⟨2, ![1, 144]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1x144 : S_.BroadcastsInDim S1x144 (![] : Fin 0 → Fin S1x144.rank)
  reducesTo_S1x144_S_d0_1 : S1x144.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S1x144 .f32) (main_v50 : FVec F S1x144 .f32) : IVec S_ 1 :=
  let main_v51 : IVec S1x144 1 := cmpf .olt main_v49 main_v50
  let main_c_19 : IVec S_ 1 := constantI S_ 1 1#1
  let main_v52 : IVec S_ 1 := (fun x v => Host.reduce IntOp.andi x v reducesTo_S1x144_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S32 .f32) (main_arg10 : FVec F S16x32 .f32) (main_arg11 : FVec F S16 .f32) (main_arg12 : FVec F S1x144 .f32) (main_arg13 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S16x32 .f32 := Host.absf main_arg10
  let main_cst_14 : FVec F S_ .f32 := constant S_ .f32 0x7F800000#32
  let main_v40 : FVec F S16x32 .f32 := broadcastInDim S16x32 ![] bcast_S_S16x32 main_cst_14
  let main_v41 : IVec S16x32 1 := cmpf .olt main_v39 main_v40
  let main_c_15 : IVec S_ 1 := constantI S_ 1 1#1
  let main_v42 : IVec S_ 1 := (fun x v => Host.reduce IntOp.andi x v reducesTo_S16x32_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S1x144 .f32 := Host.absf main_arg12
  let main_cst_18 : FVec F S_ .f32 := constant S_ .f32 0x7F800000#32
  let main_v50 : FVec F S1x144 .f32 := broadcastInDim S1x144 ![] bcast_S_S1x144 main_cst_18
  fn_part3 (F := F) main_arg13 main_v48 main_v49 main_v50

def fn_part1 {F : FTy → Type} [FloatOps F] (main_arg6 : FVec F S64x128 .f32) (main_arg7 : FVec F S64 .f32) (main_arg8 : FVec F S32x64 .f32) (main_arg9 : FVec F S32 .f32) (main_arg10 : FVec F S16x32 .f32) (main_arg11 : FVec F S16 .f32) (main_arg12 : FVec F S1x144 .f32) (main_arg13 : FVec F S1 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x64 .f32 := Host.absf main_arg8
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : IVec S512 32) (main_arg1 : IVec S1024 32) (main_arg2 : FVec F S100000x64 .f32) (main_arg3 : FVec F S50000x64 .f32) (main_arg4 : FVec F S100000x64 .f32) (main_arg5 : FVec F S50000x64 .f32) (main_arg6 : FVec F S64x128 .f32) (main_arg7 : FVec F S64 .f32) (main_arg8 : FVec F S32x64 .f32) (main_arg9 : FVec F S32 .f32) (main_arg10 : FVec F S16x32 .f32) (main_arg11 : FVec F S16 .f32) (main_arg12 : FVec F S1x144 .f32) (main_arg13 : FVec F S1 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg3
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S100000x64 .f32 := Host.absf main_arg4
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S50000x64 .f32 := Host.absf main_arg5
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg6 main_arg7 main_arg8 main_arg9 main_arg10 main_arg11 main_arg12 main_arg13 main_v13 main_v16
-- ==== Kernel.lean ====
abbrev S512 : Shape := ⟨1, ![512]⟩
abbrev S1024 : Shape := ⟨1, ![1024]⟩
abbrev S100000x64 : Shape := ⟨2, ![100000, 64]⟩
abbrev S50000x64 : Shape := ⟨2, ![50000, 64]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x144 : Shape := ⟨2, ![1, 144]⟩
abbrev S1 : Shape := ⟨1, ![1]⟩
abbrev S_ : Shape := ⟨0, ![]⟩
abbrev S512x1 : Shape := ⟨2, ![512, 1]⟩
abbrev S512x64 : Shape := ⟨2, ![512, 64]⟩
abbrev S1024x1 : Shape := ⟨2, ![1024, 1]⟩
abbrev S1024x64 : Shape := ⟨2, ![1024, 64]⟩
abbrev S128x64 : Shape := ⟨2, ![128, 64]⟩
abbrev S64x32 : Shape := ⟨2, ![64, 32]⟩
abbrev S32x16 : Shape := ⟨2, ![32, 16]⟩
abbrev S144x1 : Shape := ⟨2, ![144, 1]⟩
abbrev S1x64 : Shape := ⟨2, ![1, 64]⟩
abbrev S1x32 : Shape := ⟨2, ![1, 32]⟩
abbrev S1x16 : Shape := ⟨2, ![1, 16]⟩
abbrev S1x1 : Shape := ⟨2, ![1, 1]⟩
abbrev S512x1024x1 : Shape := ⟨3, ![512, 1024, 1]⟩
abbrev S128x128x1 : Shape := ⟨3, ![128, 128, 1]⟩
abbrev S128x1x64 : Shape := ⟨3, ![128, 1, 64]⟩
abbrev S128x128x64 : Shape := ⟨3, ![128, 128, 64]⟩
abbrev S1x128x64 : Shape := ⟨3, ![1, 128, 64]⟩
abbrev S128x128x128 : Shape := ⟨3, ![128, 128, 128]⟩
abbrev S16384x128 : Shape := ⟨2, ![16384, 128]⟩
abbrev S16384x64 : Shape := ⟨2, ![16384, 64]⟩
abbrev S16384x32 : Shape := ⟨2, ![16384, 32]⟩
abbrev S16384x16 : Shape := ⟨2, ![16384, 16]⟩
abbrev S16384x144 : Shape := ⟨2, ![16384, 144]⟩
abbrev S16384x1 : Shape := ⟨2, ![16384, 1]⟩
abbrev S512x1024 : Shape := ⟨2, ![512, 1024]⟩

abbrev nBuf : Space → Nat
  | .hbm => 60
  | .vmem => 18
  | .smem => 0
  | _ => 0

abbrev bufTy : (tb : Table) → Fin (tcTables nBuf tb) → BufTy
  | .hbm, ⟨0, _⟩ => ⟨S512, .i32⟩
  | .hbm, ⟨1, _⟩ => ⟨S1024, .i32⟩
  | .hbm, ⟨2, _⟩ => ⟨S100000x64, .f32⟩
  | .hbm, ⟨3, _⟩ => ⟨S50000x64, .f32⟩
  | .hbm, ⟨4, _⟩ => ⟨S100000x64, .f32⟩
  | .hbm, ⟨5, _⟩ => ⟨S50000x64, .f32⟩
  | .hbm, ⟨6, _⟩ => ⟨S64x128, .f32⟩
  | .hbm, ⟨7, _⟩ => ⟨S64, .f32⟩
  | .hbm, ⟨8, _⟩ => ⟨S32x64, .f32⟩
  | .hbm, ⟨9, _⟩ => ⟨S32, .f32⟩
  | .hbm, ⟨10, _⟩ => ⟨S16x32, .f32⟩
  | .hbm, ⟨11, _⟩ => ⟨S16, .f32⟩
  | .hbm, ⟨12, _⟩ => ⟨S1x144, .f32⟩
  | .hbm, ⟨13, _⟩ => ⟨S1, .f32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S512x1, .i32⟩
  | .hbm, ⟨22, _⟩ => ⟨S512x64, .f32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S1024x1, .i32⟩
  | .hbm, ⟨31, _⟩ => ⟨S1024x64, .f32⟩
  | .hbm, ⟨32, _⟩ => ⟨S_, .i32⟩
  | .hbm, ⟨33, _⟩ => ⟨S512, .i32⟩
  | .hbm, ⟨34, _⟩ => ⟨S512, .i1⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S512, .i32⟩
  | .hbm, ⟨39, _⟩ => ⟨S512x1, .i32⟩
  | .hbm, ⟨40, _⟩ => ⟨S512x64, .f32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S1024x64, .f32⟩
  | .hbm, ⟨50, _⟩ => ⟨S128x64, .f32⟩
  | .hbm, ⟨51, _⟩ => ⟨S64x32, .f32⟩
  | .hbm, ⟨52, _⟩ => ⟨S32x16, .f32⟩
  | .hbm, ⟨53, _⟩ => ⟨S144x1, .f32⟩
  | .hbm, ⟨54, _⟩ => ⟨S1x64, .f32⟩
  | .hbm, ⟨55, _⟩ => ⟨S1x32, .f32⟩
  | .hbm, ⟨56, _⟩ => ⟨S1x16, .f32⟩
  | .hbm, ⟨57, _⟩ => ⟨S1x1, .f32⟩
  | .hbm, ⟨58, _⟩ => ⟨S512x1024x1, .f32⟩
  | .hbm, ⟨59, _⟩ => ⟨S512x1024, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S1x64, .f32⟩
  | .local _ .vmem, ⟨10, _⟩ => ⟨S64x32, .f32⟩
  | .local _ .vmem, ⟨11, _⟩ => ⟨S1x32, .f32⟩
  | .local _ .vmem, ⟨12, _⟩ => ⟨S32x16, .f32⟩
  | .local _ .vmem, ⟨13, _⟩ => ⟨S1x16, .f32⟩
  | .local _ .vmem, ⟨14, _⟩ => ⟨S144x1, .f32⟩
  | .local _ .vmem, ⟨15, _⟩ => ⟨S1x1, .f32⟩
  | .local _ .vmem, ⟨16, _⟩ => ⟨S128x128x1, .f32⟩
  | .local _ .vmem, ⟨17, _⟩ => ⟨S128x128x1, .f32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S144x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x128x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S_S1024 : S_.BroadcastsInDim S1024 (![] : Fin 0 → Fin S1024.rank)
  bcast_S1024_S1024x1_0 : S1024.BroadcastsInDim S1024x1 (![0] : Fin 1 → Fin S1024x1.rank)
  transposes_S64x128_S128x64_1_0 : S64x128.Transposes [1, 0] S128x64
  transposes_S32x64_S64x32_1_0 : S32x64.Transposes [1, 0] S64x32
  transposes_S16x32_S32x16_1_0 : S16x32.Transposes [1, 0] S32x16
  transposes_S1x144_S144x1_1_0 : S1x144.Transposes [1, 0] S144x1
  shapeCasts_S64_S1x64 : S64.ShapeCasts S1x64
  shapeCasts_S32_S1x32 : S32.ShapeCasts S1x32
  shapeCasts_S16_S1x16 : S16.ShapeCasts S1x16
  shapeCasts_S1_S1x1 : S1.ShapeCasts S1x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bitsLt_bf16_f32 : FTy.bits .bf16 < FTy.bits .f32
  shapeCasts_S128x64_S128x1x64 : S128x64.ShapeCasts S128x1x64
  shapeCasts_S128x1x64_S128x1x64 : S128x1x64.ShapeCasts S128x1x64
  broadcasts_S128x1x64_S128x128x64 : S128x1x64.Broadcasts S128x128x64
  shapeCasts_S128x64_S1x128x64 : S128x64.ShapeCasts S1x128x64
  shapeCasts_S1x128x64_S1x128x64 : S1x128x64.ShapeCasts S1x128x64
  broadcasts_S1x128x64_S128x128x64 : S1x128x64.Broadcasts S128x128x64
  concatenates_S128x128x64_S128x128x64_S128x128x128_d2 : Shape.Concatenates [S128x128x64, S128x128x64] S128x128x128 2
  shapeCasts_S128x128x128_S16384x128 : S128x128x128.ShapeCasts S16384x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S144x1_S144x1_0_0 : ∀ a, (![0, 0] : Fin 2 → Nat) a + S144x1.size a ≤ S144x1.size a
  h_S144x1 : 0 < S144x1.numel
  shapeCasts_S144x1_S144x1 : S144x1.ShapeCasts S144x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x64_S16384x64 : S1x64.Broadcasts S16384x64
  broadcasts_S1x32_S16384x32 : S1x32.Broadcasts S16384x32
  broadcasts_S1x16_S16384x16 : S1x16.Broadcasts S16384x16
  concatenates_S16384x128_S16384x16_S16384x144_d1 : Shape.Concatenates [S16384x128, S16384x16] S16384x144 1
  broadcasts_S1x1_S16384x1 : S1x1.Broadcasts S16384x1
  shapeCasts_S16384x1_S128x128x1 : S16384x1.ShapeCasts S128x128x1
  inb_S128x128x1_S128x128x1_0_0_0 : ∀ a, (![0, 0, 0] : Fin 3 → Nat) a + S128x128x1.size a ≤ S128x128x1.size a
  h_S128x128x1 : 0 < S128x128x1.numel
  shapeCasts_S512x1024x1_S512x1024 : S512x1024x1.ShapeCasts S512x1024
  gather_S100000x64_S512x1_S512x64_1_0_n_n_0_1_164_wf : GatherDims.WF S100000x64 S512x1 S512x64 [1] [0] [] [0] [] 1 ![1, 64]
  gather_S50000x64_S1024x1_S1024x64_1_0_n_n_0_1_164_wf : GatherDims.WF S50000x64 S1024x1 S1024x64 [1] [0] [] [0] [] 1 ![1, 64]
  dot_S16384x128_S128x64_S16384x64_1_0_0_1_n_n_wf : DotDims.WF S16384x128 S128x64 S16384x64 [1] [0] [0] [1] [] []
  dot_S16384x64_S64x32_S16384x32_1_0_0_1_n_n_wf : DotDims.WF S16384x64 S64x32 S16384x32 [1] [0] [0] [1] [] []
  dot_S16384x32_S32x16_S16384x16_1_0_0_1_n_n_wf : DotDims.WF S16384x32 S32x16 S16384x16 [1] [0] [0] [1] [] []
  dot_S16384x144_S144x1_S16384x1_1_0_0_1_n_n_wf : DotDims.WF S16384x144 S144x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S512x64.size a
  hwx0_0 : ∀ i : grid0.Coords, EltTy.bits .f32 = 32 ∨ (Rect.block (s := S512x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S1024x64.size a
  hwx0_1 : ∀ i : grid0.Coords, EltTy.bits .f32 = 32 ∨ (Rect.block (s := S1024x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S512x64.size a
  hwx0_2 : ∀ i : grid0.Coords, EltTy.bits .f32 = 32 ∨ (Rect.block (s := S512x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S1024x64.size a
  hwx0_3 : ∀ i : grid0.Coords, EltTy.bits .f32 = 32 ∨ (Rect.block (s := S1024x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x16.size a ≤ S32x16.size a
  hwx0_8 : ∀ i : grid0.Coords, EltTy.bits .f32 = 32 ∨ (Rect.block (s := S32x16) S32x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x16.size a ≤ S1x16.size a
  hwx0_9 : ∀ i : grid0.Coords, EltTy.bits .f32 = 32 ∨ (Rect.block (s := S1x16) S1x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S144x1.size a ≤ S144x1.size a
  hwx0_10 : ∀ i : grid0.Coords, EltTy.bits .f32 = 32 ∨ (Rect.block (s := S144x1) S144x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x128x1.size a ≤ S512x1024x1.size a
  hwx0_12 : ∀ i : grid0.Coords, EltTy.bits .f32 = 32 ∨ (Rect.block (s := S512x1024x1) S128x128x1.size (cc0_transform_12 i) (hinb0_12 i)).WholeWords (EltTy.packing .f32)

variable [Facts₀]

def gather_S100000x64_S512x1_S512x64_1_0_n_n_0_1_164 : GatherDims S100000x64 S512x1 S512x64 where
  offsetDims := [1]
  collapsedSliceDims := [0]
  operandBatchingDims := []
  startIndicesBatchingDims := []
  startIndexMap := [0]
  indexVectorDim := 1
  sliceSizes := ![1, 64]
  wf := gather_S100000x64_S512x1_S512x64_1_0_n_n_0_1_164_wf
def gather_S50000x64_S1024x1_S1024x64_1_0_n_n_0_1_164 : GatherDims S50000x64 S1024x1 S1024x64 where
  offsetDims := [1]
  collapsedSliceDims := [0]
  operandBatchingDims := []
  startIndicesBatchingDims := []
  startIndexMap := [0]
  indexVectorDim := 1
  sliceSizes := ![1, 64]
  wf := gather_S50000x64_S1024x1_S1024x64_1_0_n_n_0_1_164_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x16_S16384x16_1_0_0_1_n_n : DotDims S16384x32 S32x16 S16384x16 where
  lhsContracting := [1]
  rhsContracting := [0]
  lhsNonContracting := [0]
  rhsNonContracting := [1]
  lhsBatch := []
  rhsBatch := []
  wf := dot_S16384x32_S32x16_S16384x16_1_0_0_1_n_n_wf
def dot_S16384x144_S144x1_S16384x1_1_0_0_1_n_n : DotDims S16384x144 S144x1 S16384x1 where
  lhsContracting := [1]
  rhsContracting := [0]
  lhsNonContracting := [0]
  rhsNonContracting := [1]
  lhsBatch := []
  rhsBatch := []
  wf := dot_S16384x144_S144x1_S16384x1_1_0_0_1_n_n_wf

abbrev win0_0 : Pipeline.Window sig grid0 :=
  Pipeline.Window.ofSpec (Memref.whole main_v6) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S32x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v34) S1x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v31) S144x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v35) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v36) S128x128x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S512 : Shape := ⟨1, ![512]⟩
abbrev S1024 : Shape := ⟨1, ![1024]⟩
abbrev S100000x64 : Shape := ⟨2, ![100000, 64]⟩
abbrev S50000x64 : Shape := ⟨2, ![50000, 64]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x144 : Shape := ⟨2, ![1, 144]⟩
abbrev S1 : Shape := ⟨1, ![1]⟩
abbrev S_ : Shape := ⟨0, ![]⟩
abbrev S512x1 : Shape := ⟨2, ![512, 1]⟩
abbrev S512x64 : Shape := ⟨2, ![512, 64]⟩
abbrev S1024x1 : Shape := ⟨2, ![1024, 1]⟩
abbrev S1024x64 : Shape := ⟨2, ![1024, 64]⟩
abbrev S512x1x64 : Shape := ⟨3, ![512, 1, 64]⟩
abbrev S512x1024x64 : Shape := ⟨3, ![512, 1024, 64]⟩
abbrev S1x1024x64 : Shape := ⟨3, ![1, 1024, 64]⟩
abbrev S512x1024x128 : Shape := ⟨3, ![512, 1024, 128]⟩
abbrev S524288x128 : Shape := ⟨2, ![524288, 128]⟩
abbrev S128x64 : Shape := ⟨2, ![128, 64]⟩
abbrev S524288x64 : Shape := ⟨2, ![524288, 64]⟩
abbrev S1x64 : Shape := ⟨2, ![1, 64]⟩
abbrev S64x32 : Shape := ⟨2, ![64, 32]⟩
abbrev S524288x32 : Shape := ⟨2, ![524288, 32]⟩
abbrev S1x32 : Shape := ⟨2, ![1, 32]⟩
abbrev S32x16 : Shape := ⟨2, ![32, 16]⟩
abbrev S524288x16 : Shape := ⟨2, ![524288, 16]⟩
abbrev S1x16 : Shape := ⟨2, ![1, 16]⟩
abbrev S524288x144 : Shape := ⟨2, ![524288, 144]⟩
abbrev S144x1 : Shape := ⟨2, ![144, 1]⟩
abbrev S524288x1 : Shape := ⟨2, ![524288, 1]⟩
abbrev S1x1 : Shape := ⟨2, ![1, 1]⟩
abbrev S512x1024 : Shape := ⟨2, ![512, 1024]⟩

abbrev nBuf : Space → Nat
  | .hbm => 96
  | .vmem => 0
  | .smem => 0
  | _ => 0

abbrev bufTy : (tb : Table) → Fin (tcTables nBuf tb) → BufTy
  | .hbm, ⟨0, _⟩ => ⟨S512, .i32⟩
  | .hbm, ⟨1, _⟩ => ⟨S1024, .i32⟩
  | .hbm, ⟨2, _⟩ => ⟨S100000x64, .f32⟩
  | .hbm, ⟨3, _⟩ => ⟨S50000x64, .f32⟩
  | .hbm, ⟨4, _⟩ => ⟨S100000x64, .f32⟩
  | .hbm, ⟨5, _⟩ => ⟨S50000x64, .f32⟩
  | .hbm, ⟨6, _⟩ => ⟨S64x128, .f32⟩
  | .hbm, ⟨7, _⟩ => ⟨S64, .f32⟩
  | .hbm, ⟨8, _⟩ => ⟨S32x64, .f32⟩
  | .hbm, ⟨9, _⟩ => ⟨S32, .f32⟩
  | .hbm, ⟨10, _⟩ => ⟨S16x32, .f32⟩
  | .hbm, ⟨11, _⟩ => ⟨S16, .f32⟩
  | .hbm, ⟨12, _⟩ => ⟨S1x144, .f32⟩
  | .hbm, ⟨13, _⟩ => ⟨S1, .f32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S512x1, .i32⟩
  | .hbm, ⟨22, _⟩ => ⟨S512x64, .f32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S1024x1, .i32⟩
  | .hbm, ⟨31, _⟩ => ⟨S1024x64, .f32⟩
  | .hbm, ⟨32, _⟩ => ⟨S512x1x64, .f32⟩
  | .hbm, ⟨33, _⟩ => ⟨S512x1024x64, .f32⟩
  | .hbm, ⟨34, _⟩ => ⟨S1x1024x64, .f32⟩
  | .hbm, ⟨35, _⟩ => ⟨S512x1024x64, .f32⟩
  | .hbm, ⟨36, _⟩ => ⟨S512x1024x128, .f32⟩
  | .hbm, ⟨37, _⟩ => ⟨S524288x128, .f32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S_, .i32⟩
  | .hbm, ⟨42, _⟩ => ⟨S512, .i32⟩
  | .hbm, ⟨43, _⟩ => ⟨S512, .i32⟩
  | .hbm, ⟨44, _⟩ => ⟨S512, .i32⟩
  | .hbm, ⟨45, _⟩ => ⟨S512x1, .i32⟩
  | .hbm, ⟨46, _⟩ => ⟨S512x64, .f32⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1024x1, .i32⟩
  | .hbm, ⟨55, _⟩ => ⟨S1024x64, .f32⟩
  | .hbm, ⟨56, _⟩ => ⟨S512x1x64, .f32⟩
  | .hbm, ⟨57, _⟩ => ⟨S512x1024x64, .f32⟩
  | .hbm, ⟨58, _⟩ => ⟨S1x1024x64, .f32⟩
  | .hbm, ⟨59, _⟩ => ⟨S512x1024x64, .f32⟩
  | .hbm, ⟨60, _⟩ => ⟨S512x1024x128, .f32⟩
  | .hbm, ⟨61, _⟩ => ⟨S524288x128, .f32⟩
  | .hbm, ⟨62, _⟩ => ⟨S128x64, .f32⟩
  | .hbm, ⟨63, _⟩ => ⟨S524288x64, .f32⟩
  | .hbm, ⟨64, _⟩ => ⟨S1x64, .f32⟩
  | .hbm, ⟨65, _⟩ => ⟨S524288x64, .f32⟩
  | .hbm, ⟨66, _⟩ => ⟨S524288x64, .f32⟩
  | .hbm, ⟨67, _⟩ => ⟨S_, .f32⟩
  | .hbm, ⟨68, _⟩ => ⟨S524288x64, .f32⟩
  | .hbm, ⟨69, _⟩ => ⟨S524288x64, .f32⟩
  | .hbm, ⟨70, _⟩ => ⟨S64x32, .f32⟩
  | .hbm, ⟨71, _⟩ => ⟨S524288x32, .f32⟩
  | .hbm, ⟨72, _⟩ => ⟨S1x32, .f32⟩
  | .hbm, ⟨73, _⟩ => ⟨S524288x32, .f32⟩
  | .hbm, ⟨74, _⟩ => ⟨S524288x32, .f32⟩
  | .hbm, ⟨75, _⟩ => ⟨S_, .f32⟩
  | .hbm, ⟨76, _⟩ => ⟨S524288x32, .f32⟩
  | .hbm, ⟨77, _⟩ => ⟨S524288x32, .f32⟩
  | .hbm, ⟨78, _⟩ => ⟨S32x16, .f32⟩
  | .hbm, ⟨79, _⟩ => ⟨S524288x16, .f32⟩
  | .hbm, ⟨80, _⟩ => ⟨S1x16, .f32⟩
  | .hbm, ⟨81, _⟩ => ⟨S524288x16, .f32⟩
  | .hbm, ⟨82, _⟩ => ⟨S524288x16, .f32⟩
  | .hbm, ⟨83, _⟩ => ⟨S_, .f32⟩
  | .hbm, ⟨84, _⟩ => ⟨S524288x16, .f32⟩
  | .hbm, ⟨85, _⟩ => ⟨S524288x16, .f32⟩
  | .hbm, ⟨86, _⟩ => ⟨S524288x144, .f32⟩
  | .hbm, ⟨87, _⟩ => ⟨S144x1, .f32⟩
  | .hbm, ⟨88, _⟩ => ⟨S524288x1, .f32⟩
  | .hbm, ⟨89, _⟩ => ⟨S1x1, .f32⟩
  | .hbm, ⟨90, _⟩ => ⟨S524288x1, .f32⟩
  | .hbm, ⟨91, _⟩ => ⟨S524288x1, .f32⟩
  | .hbm, ⟨92, _⟩ => ⟨S_, .f32⟩
  | .hbm, ⟨93, _⟩ => ⟨S524288x1, .f32⟩
  | .hbm, ⟨94, _⟩ => ⟨S524288x1, .f32⟩
  | .hbm, ⟨95, _⟩ => ⟨S512x1024, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call0_cst : Ref sig .tc := ⟨.hbm, 67, rfl⟩
abbrev main_call0_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call2_cst : Ref sig .tc := ⟨.hbm, 83, rfl⟩
abbrev main_call2_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call3_cst : Ref sig .tc := ⟨.hbm, 92, rfl⟩
abbrev main_call3_v0 : Ref sig .tc := ⟨.hbm, 93, rfl⟩
abbrev main_v64 : Ref sig .tc := ⟨.hbm, 94, rfl⟩
abbrev main_v65 : Ref sig .tc := ⟨.hbm, 95, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S512x64_S512x1x64_0_2 : S512x64.BroadcastsInDim S512x1x64 (![0, 2] : Fin 2 → Fin S512x1x64.rank)
  bcast_S512x1x64_S512x1024x64_0_1_2 : S512x1x64.BroadcastsInDim S512x1024x64 (![0, 1, 2] : Fin 3 → Fin S512x1024x64.rank)
  bcast_S1024x64_S1x1024x64_1_2 : S1024x64.BroadcastsInDim S1x1024x64 (![1, 2] : Fin 2 → Fin S1x1024x64.rank)
  bcast_S1x1024x64_S512x1024x64_0_1_2 : S1x1024x64.BroadcastsInDim S512x1024x64 (![0, 1, 2] : Fin 3 → Fin S512x1024x64.rank)
  concatenates_S512x1024x64_S512x1024x64_S512x1024x128_d2 : Shape.Concatenates [S512x1024x64, S512x1024x64] S512x1024x128 2
  shapeCasts_S512x1024x128_S524288x128 : S512x1024x128.ShapeCasts S524288x128
  transposes_S64x128_S128x64_1_0 : S64x128.Transposes [1, 0] S128x64
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  transposes_S32x64_S64x32_1_0 : S32x64.Transposes [1, 0] S64x32
  bcast_S32_S1x32_1 : S32.BroadcastsInDim S1x32 (![1] : Fin 1 → Fin S1x32.rank)
  bcast_S1x32_S524288x32_0_1 : S1x32.BroadcastsInDim S524288x32 (![0, 1] : Fin 2 → Fin S524288x32.rank)
  bcast_S_S524288x32 : S_.BroadcastsInDim S524288x32 (![] : Fin 0 → Fin S524288x32.rank)
  transposes_S16x32_S32x16_1_0 : S16x32.Transposes [1, 0] S32x16
  bcast_S16_S1x16_1 : S16.BroadcastsInDim S1x16 (![1] : Fin 1 → Fin S1x16.rank)
  bcast_S1x16_S524288x16_0_1 : S1x16.BroadcastsInDim S524288x16 (![0, 1] : Fin 2 → Fin S524288x16.rank)
  bcast_S_S524288x16 : S_.BroadcastsInDim S524288x16 (![] : Fin 0 → Fin S524288x16.rank)
  concatenates_S524288x128_S524288x16_S524288x144_d1 : Shape.Concatenates [S524288x128, S524288x16] S524288x144 1
  transposes_S1x144_S144x1_1_0 : S1x144.Transposes [1, 0] S144x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  bcast_S_S524288x1 : S_.BroadcastsInDim S524288x1 (![] : Fin 0 → Fin S524288x1.rank)
  shapeCasts_S524288x1_S512x1024 : S524288x1.ShapeCasts S512x1024
  gather_S100000x64_S512x1_S512x64_1_0_n_n_0_1_164_wf : GatherDims.WF S100000x64 S512x1 S512x64 [1] [0] [] [0] [] 1 ![1, 64]
  gather_S50000x64_S1024x1_S1024x64_1_0_n_n_0_1_164_wf : GatherDims.WF S50000x64 S1024x1 S1024x64 [1] [0] [] [0] [] 1 ![1, 64]
  dot_S524288x128_S128x64_S524288x64_1_0_0_1_n_n_wf : DotDims.WF S524288x128 S128x64 S524288x64 [1] [0] [0] [1] [] []
  dot_S524288x64_S64x32_S524288x32_1_0_0_1_n_n_wf : DotDims.WF S524288x64 S64x32 S524288x32 [1] [0] [0] [1] [] []
  dot_S524288x32_S32x16_S524288x16_1_0_0_1_n_n_wf : DotDims.WF S524288x32 S32x16 S524288x16 [1] [0] [0] [1] [] []
  dot_S524288x144_S144x1_S524288x1_1_0_0_1_n_n_wf : DotDims.WF S524288x144 S144x1 S524288x1 [1] [0] [0] [1] [] []

variable [Facts₀]

def gather_S100000x64_S512x1_S512x64_1_0_n_n_0_1_164 : GatherDims S100000x64 S512x1 S512x64 where
  offsetDims := [1]
  collapsedSliceDims := [0]
  operandBatchingDims := []
  startIndicesBatchingDims := []
  startIndexMap := [0]
  indexVectorDim := 1
  sliceSizes := ![1, 64]
  wf := gather_S100000x64_S512x1_S512x64_1_0_n_n_0_1_164_wf
def gather_S50000x64_S1024x1_S1024x64_1_0_n_n_0_1_164 : GatherDims S50000x64 S1024x1 S1024x64 where
  offsetDims := [1]
  collapsedSliceDims := [0]
  operandBatchingDims := []
  startIndicesBatchingDims := []
  startIndexMap := [0]
  indexVectorDim := 1
  sliceSizes := ![1, 64]
  wf := gather_S50000x64_S1024x1_S1024x64_1_0_n_n_0_1_164_wf
def dot_S524288x128_S128x64_S524288x64_1_0_0_1_n_n : DotDims S524288x128 S128x64 S524288x64 where
  lhsContracting := [1]
  rhsContracting := [0]
  lhsNonContracting := [0]
  rhsNonContracting := [1]
  lhsBatch := []
  rhsBatch := []
  wf := dot_S524288x128_S128x64_S524288x64_1_0_0_1_n_n_wf
def dot_S524288x64_S64x32_S524288x32_1_0_0_1_n_n : DotDims S524288x64 S64x32 S524288x32 where
  lhsContracting := [1]
  rhsContracting := [0]
  lhsNonContracting := [0]
  rhsNonContracting := [1]
  lhsBatch := []
  rhsBatch := []
  wf := dot_S524288x64_S64x32_S524288x32_1_0_0_1_n_n_wf
def dot_S524288x32_S32x16_S524288x16_1_0_0_1_n_n : DotDims S524288x32 S32x16 S524288x16 where
  lhsContracting := [1]
  rhsContracting := [0]
  lhsNonContracting := [0]
  rhsNonContracting := [1]
  lhsBatch := []
  rhsBatch := []
  wf := dot_S524288x32_S32x16_S524288x16_1_0_0_1_n_n_wf
def dot_S524288x144_S144x1_S524288x1_1_0_0_1_n_n : DotDims S524288x144 S144x1 S524288x1 where
  lhsContracting := [1]
  rhsContracting := [0]
  lhsNonContracting := [0]
  rhsNonContracting := [1]
  lhsBatch := []
  rhsBatch := []
  wf := dot_S524288x144_S144x1_S524288x1_1_0_0_1_n_n_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.Spec.lean ====
/-
  The cross-product scoring network, one (user, item) pair at a time.

  Every entry of the result depends on one user row and one item row of each embedding pair, and on the
  weights.  The pair's multi-layer input is the user's and the item's rows laid end to end; three dense
  layers, each followed by the positive part, narrow it from 128 to 64, 32 and 16 features; these 16 are laid
  after the matrix-factorisation pair's 128 features, and one more dense layer with the positive part gives
  the score.  A sum over the contracted index is written once here, so that the two programs' orders of
  summation never have to be compared: both read as this same sum.
-/
import Idealize.ShloMosaic.Lib.ValueIdx
import Idealize.ShloMosaic.Lib.ValueLayout
import Idealize.ShloMosaic.Lib.Pipeline.Value
import Idealize.ShloMosaic.PureOps.Ideal.Laws
import proofs.«123985_j42992622633213_1_alg».proof.Proof.LibRowOps

noncomputable section

open scoped BigOperators

namespace CrossMlp

open Idealize.ShloMosaic Idealize.ShloMosaic.ValueIdx RowOps

/-- A dense layer followed by the positive part, on one row; the bias is given column by column. -/
def layer {K H : ℕ} (W : (⟨2, ![K, H]⟩ : Shape).Idx → EReal) (b : Fin H → EReal) (x : Fin K → EReal) : Fin H → EReal :=
  relu (fun h => (∑ k : Fin K, x k * W (ix2 k h)) + b h)

/-- Row `n` of a two-dimensional array. -/
abbrev row {R K : ℕ} (z : (⟨2, ![R, K]⟩ : Shape).Idx → EReal) (n : Fin R) : Fin K → EReal := fun k => z (ix2 n k)

/-- The one row of a `1 × H` array, column by column. -/
abbrev row0 {H : ℕ} (b : (⟨2, ![1, H]⟩ : Shape).Idx → EReal) : Fin H → EReal := fun h => b (ix2 (0 : Fin 1) h)

/-- The entries of a one-dimensional array, position by position. -/
abbrev vec {H : ℕ} (b : (⟨1, ![H]⟩ : Shape).Idx → EReal) : Fin H → EReal := fun h => b (ix1 h)

/-- The score of one (user, item) pair from the pair's four embedding rows and the weights (already transposed,
    input features along the rows). -/
def score (umf imf umlp imlp : Fin 64 → EReal)
    (W1 : (⟨2, ![128, 64]⟩ : Shape).Idx → EReal) (b1 : Fin 64 → EReal)
    (W2 : (⟨2, ![64, 32]⟩ : Shape).Idx → EReal) (b2 : Fin 32 → EReal)
    (W4 : (⟨2, ![32, 16]⟩ : Shape).Idx → EReal) (b4 : Fin 16 → EReal)
    (Wo : (⟨2, ![144, 1]⟩ : Shape).Idx → EReal) (bo : Fin 1 → EReal) : EReal :=
  layer Wo bo (cat2 144 (cat2 128 umf imf) (layer W4 b4 (layer W2 b2 (layer W1 b1 (cat2 128 umlp imlp))))) 0

/-- The whole result: entry `(u, i)` is the score of user row `u` and item row `i` of the gathered embeddings. -/
def scores (UMF : (⟨2, ![512, 64]⟩ : Shape).Idx → EReal) (IMF : (⟨2, ![1024, 64]⟩ : Shape).Idx → EReal)
    (UMLP : (⟨2, ![512, 64]⟩ : Shape).Idx → EReal) (IMLP : (⟨2, ![1024, 64]⟩ : Shape).Idx → EReal)
    (W1 : (⟨2, ![128, 64]⟩ : Shape).Idx → EReal) (b1 : (⟨1, ![64]⟩ : Shape).Idx → EReal)
    (W2 : (⟨2, ![64, 32]⟩ : Shape).Idx → EReal) (b2 : (⟨1, ![32]⟩ : Shape).Idx → EReal)
    (W4 : (⟨2, ![32, 16]⟩ : Shape).Idx → EReal) (b4 : (⟨1, ![16]⟩ : Shape).Idx → EReal)
    (Wo : (⟨2, ![144, 1]⟩ : Shape).Idx → EReal) (bo : (⟨1, ![1]⟩ : Shape).Idx → EReal) :
    (⟨2, ![512, 1024]⟩ : Shape).Idx → EReal :=
  fun i => score (row UMF (i 0)) (row IMF (i 1)) (row UMLP (i 0)) (row IMLP (i 1)) W1 (vec b1) W2 (vec b2) W4 (vec b4) Wo (vec bo)

/-! ## A layer of an array, read at a row, in both spellings -/

section Layer
variable {R K H : ℕ}

/-- The kernel's layer: the operands' product into the zero splat, plus the one bias row broadcast down the rows,
    then the positive part against a zero splat. -/
theorem layer_kernel_apply {φ₁ φ₂ : FTy} (d : DotDims ⟨2, ![R, K]⟩ ⟨2, ![K, H]⟩ ⟨2, ![R, H]⟩) (hd : d = DotDims.plain R K H)
    (z : FVec Ideal ⟨2, ![R, K]⟩ φ₁) (W : FVec Ideal ⟨2, ![K, H]⟩ φ₂) (b : FVec Ideal ⟨2, ![1, H]⟩ .f32)
    (hbc : (⟨2, ![1, H]⟩ : Shape).Broadcasts ⟨2, ![R, H]⟩) (n : Fin R) (h : Fin H) :
    maximumf (addf (matmul d none z W (constant ⟨2, ![R, H]⟩ .f32 0x00000000#32)) (broadcastTo ⟨2, ![R, H]⟩ b hbc))
        (broadcast ⟨2, ![R, H]⟩ (Scalar.ofBits (F := Ideal) .f32 0x00000000#32)) (ix2 n h)
      = layer W (row0 b) (fun k => z (ix2 n k)) h := by
  show max (matmul d none z W (constant ⟨2, ![R, H]⟩ .f32 0x00000000#32) (ix2 n h) + broadcastTo ⟨2, ![R, H]⟩ b hbc (ix2 n h))
      (Ideal.ofBits .f32 0x00000000#32) = _
  rw [matmul_plain_apply d hd, broadcastTo_1b_ab_apply]
  rfl

end Layer

end CrossMlp

end
-- ==== Proof.Cross.lean ====
/-
  The cross product of user rows and item rows, laid out as one long list of pairs, read at a pair.

  Both programs build, for every (user, item) pair, the user's row followed by the item's row: the user rows
  are repeated along a new middle axis, the item rows along a new leading axis, the two are joined along the
  features, and the leading two axes are merged so that pair `(a, b)` sits at row `a · B + b`.  Read at that row,
  the result is the two rows laid end to end.  The kernel and the host spell the repetition differently (a cast
  to a unit axis and a broadcast; two broadcasts that name their axes), so the reading is stated once for each.
-/
import proofs.«123985_j42992622633213_1_alg».proof.Proof.Spec

noncomputable section

open scoped BigOperators

namespace CrossMlp

open Idealize.ShloMosaic Idealize.ShloMosaic.ValueIdx RowOps

section Cat3
variable {A B E₁ E₂ C : ℕ}

/-- Two rank-3 arrays joined along the last axis: the fibre at `(a, b)` is the two fibres laid end to end. -/
theorem cat2_axis2_apply (x : (⟨3, ![A, B, E₁]⟩ : Shape).Idx → EReal) (y : (⟨3, ![A, B, E₂]⟩ : Shape).Idx → EReal)
    (hc : Shape.Concatenates [(⟨3, ![A, B, E₁]⟩ : Shape), ⟨3, ![A, B, E₂]⟩] ⟨3, ![A, B, C]⟩ 2) (hC : C = E₁ + E₂)
    (a : Fin A) (b : Fin B) (j : Fin C) :
    concatenate ⟨3, ![A, B, C]⟩ 2 [⟨⟨3, ![A, B, E₁]⟩, x⟩, ⟨⟨3, ![A, B, E₂]⟩, y⟩] hc (ix3 a b j)
      = cat2 C (fun k => x (ix3 a b k)) (fun k => y (ix3 a b k)) j := by
  unfold cat2
  have hjC := j.isLt
  by_cases hj : j.val < E₁
  · rw [dif_pos hj]
    exact concatenate_apply_piece (2 : Fin (⟨3, ![A, B, C]⟩ : Shape).rank) [⟨⟨3, ![A, B, E₁]⟩, x⟩, ⟨⟨3, ![A, B, E₂]⟩, y⟩] hc (ix3 a b j) 0 (by simp) ⟨3, ![A, B, E₁]⟩ x rfl rfl 0 rfl
      (ix3 a b ⟨j.val, hj⟩) (fun d hd => by
        match d with
        | ⟨0, _⟩ => rfl
        | ⟨1, _⟩ => rfl
        | ⟨2, _⟩ => exact absurd (Fin.ext rfl) hd) (Nat.zero_add _)
  · have h2 : j.val - E₁ < E₂ := by omega
    rw [dif_neg hj, dif_pos h2]
    exact concatenate_apply_piece (2 : Fin (⟨3, ![A, B, C]⟩ : Shape).rank) [⟨⟨3, ![A, B, E₁]⟩, x⟩, ⟨⟨3, ![A, B, E₂]⟩, y⟩] hc (ix3 a b j) 1 (by simp) ⟨3, ![A, B, E₂]⟩ y rfl rfl E₁
      (by simp) (ix3 a b ⟨j.val - E₁, h2⟩) (fun d hd => by
        match d with
        | ⟨0, _⟩ => rfl
        | ⟨1, _⟩ => rfl
        | ⟨2, _⟩ => exact absurd (Fin.ext rfl) hd) (by show E₁ + (j.val - E₁) = j.val; omega)

end Cat3

section Merge
variable {A B C N : ℕ} {α : Type}

/-- The two leading axes merged: row `a · B + b` of the result is the fibre at `(a, b)`. -/
theorem merge_apply (v : (⟨3, ![A, B, C]⟩ : Shape).Idx → α) (hs : (⟨3, ![A, B, C]⟩ : Shape).ShapeCasts ⟨2, ![N, C]⟩)
    (a : Fin A) (b : Fin B) (n : Fin N) (hn : n.val = a.val * B + b.val) (j : Fin C) :
    shapeCast ⟨2, ![N, C]⟩ v hs (ix2 n j) = v (ix3 a b j) :=
  shapeCast_apply v hs _ _ (by
    rw [Shape.rowMajor_val_three, Shape.rowMajor_val_two]
    show (a.val * B + b.val) * C + j.val = n.val * C + j.val
    rw [hn])

/-- The leading axis split in two: the fibre at `(a, b)` of the result is row `a · B + b`. -/
theorem split_apply (v : (⟨2, ![N, C]⟩ : Shape).Idx → α) (hs : (⟨2, ![N, C]⟩ : Shape).ShapeCasts ⟨3, ![A, B, C]⟩)
    (a : Fin A) (b : Fin B) (n : Fin N) (hn : n.val = a.val * B + b.val) (j : Fin C) :
    shapeCast ⟨3, ![A, B, C]⟩ v hs (ix3 a b j) = v (ix2 n j) :=
  shapeCast_apply v hs _ _ (by
    rw [Shape.rowMajor_val_three, Shape.rowMajor_val_two]
    show n.val * C + j.val = (a.val * B + b.val) * C + j.val
    rw [hn])

end Merge

section Repeat
variable {A B E : ℕ} {α : Type}

/-- The kernel's repetition of the user rows: a unit middle axis, then a broadcast along it. -/
theorem repeat_mid_kernel_apply (x : (⟨2, ![A, E]⟩ : Shape).Idx → α) (h1 : (⟨2, ![A, E]⟩ : Shape).ShapeCasts ⟨3, ![A, 1, E]⟩)
    (hb : (⟨3, ![A, 1, E]⟩ : Shape).Broadcasts ⟨3, ![A, B, E]⟩) (a : Fin A) (b : Fin B) (k : Fin E) :
    broadcastTo ⟨3, ![A, B, E]⟩ (shapeCast ⟨3, ![A, 1, E]⟩ x h1) hb (ix3 a b k) = x (ix2 a k) := by
  rw [broadcastTo_apply _ hb (ix3 a b k) (ix3 a (0 : Fin 1) k) (fun ax => by
    match ax with
    | ⟨0, _⟩ =>
      show a.val = if A = 1 then 0 else a.val
      split
      · have := a.isLt; omega
      · rfl
    | ⟨1, _⟩ => show 0 = if (1 : ℕ) = 1 then 0 else b.val; rw [if_pos rfl]
    | ⟨2, _⟩ =>
      show k.val = if E = 1 then 0 else k.val
      split
      · have := k.isLt; omega
      · rfl)]
  exact shapeCast_apply x h1 _ _ (by
    rw [Shape.rowMajor_val_three, Shape.rowMajor_val_two]
    show a.val * E + k.val = (a.val * 1 + 0) * E + k.val
    rw [Nat.mul_one, Nat.add_zero])

/-- The kernel's repetition of the item rows: a unit leading axis, then a broadcast along it. -/
theorem repeat_lead_kernel_apply (y : (⟨2, ![B, E]⟩ : Shape).Idx → α) (h1 : (⟨2, ![B, E]⟩ : Shape).ShapeCasts ⟨3, ![1, B, E]⟩)
    (hb : (⟨3, ![1, B, E]⟩ : Shape).Broadcasts ⟨3, ![A, B, E]⟩) (a : Fin A) (b : Fin B) (k : Fin E) :
    broadcastTo ⟨3, ![A, B, E]⟩ (shapeCast ⟨3, ![1, B, E]⟩ y h1) hb (ix3 a b k) = y (ix2 b k) := by
  rw [broadcastTo_apply _ hb (ix3 a b k) (ix3 (0 : Fin 1) b k) (fun ax => by
    match ax with
    | ⟨0, _⟩ => show 0 = if (1 : ℕ) = 1 then 0 else a.val; rw [if_pos rfl]
    | ⟨1, _⟩ =>
      show b.val = if B = 1 then 0 else b.val
      split
      · have := b.isLt; omega
      · rfl
    | ⟨2, _⟩ =>
      show k.val = if E = 1 then 0 else k.val
      split
      · have := k.isLt; omega
      · rfl)]
  exact shapeCast_apply y h1 _ _ (by
    rw [Shape.rowMajor_val_three, Shape.rowMajor_val_two]
    show b.val * E + k.val = (0 * B + b.val) * E + k.val
    rw [Nat.zero_mul, Nat.zero_add])

/-- The host's repetition of the user rows: a broadcast onto axes 0 and 2, then one along the unit middle axis. -/
theorem repeat_mid_host_apply (x : (⟨2, ![A, E]⟩ : Shape).Idx → α)
    (h1 : (⟨2, ![A, E]⟩ : Shape).BroadcastsInDim ⟨3, ![A, 1, E]⟩ ![0, 2])
    (h2 : (⟨3, ![A, 1, E]⟩ : Shape).BroadcastsInDim ⟨3, ![A, B, E]⟩ ![0, 1, 2]) (a : Fin A) (b : Fin B) (k : Fin E) :
    broadcastInDim ⟨3, ![A, B, E]⟩ ![0, 1, 2] h2 (broadcastInDim ⟨3, ![A, 1, E]⟩ ![0, 2] h1 x) (ix3 a b k) = x (ix2 a k) := by
  rw [broadcastInDim_apply _ h2 _ (ix3 a b k) (ix3 a (0 : Fin 1) k) (fun ax => by
    match ax with
    | ⟨0, _⟩ =>
      show a.val = if A = 1 then 0 else a.val
      split
      · have := a.isLt; omega
      · rfl
    | ⟨1, _⟩ => show 0 = if (1 : ℕ) = 1 then 0 else b.val; rw [if_pos rfl]
    | ⟨2, _⟩ =>
      show k.val = if E = 1 then 0 else k.val
      split
      · have := k.isLt; omega
      · rfl)]
  exact broadcastInDim_apply _ h1 x (ix3 a (0 : Fin 1) k) (ix2 a k) (fun ax => by
    match ax with
    | ⟨0, _⟩ =>
      show a.val = if A = 1 then 0 else a.val
      split
      · have := a.isLt; omega
      · rfl
    | ⟨1, _⟩ =>
      show k.val = if E = 1 then 0 else k.val
      split
      · have := k.isLt; omega
      · rfl)

/-- The host's repetition of the item rows: a broadcast onto axes 1 and 2, then one along the unit leading axis. -/
theorem repeat_lead_host_apply (y : (⟨2, ![B, E]⟩ : Shape).Idx → α)
    (h1 : (⟨2, ![B, E]⟩ : Shape).BroadcastsInDim ⟨3, ![1, B, E]⟩ ![1, 2])
    (h2 : (⟨3, ![1, B, E]⟩ : Shape).BroadcastsInDim ⟨3, ![A, B, E]⟩ ![0, 1, 2]) (a : Fin A) (b : Fin B) (k : Fin E) :
    broadcastInDim ⟨3, ![A, B, E]⟩ ![0, 1, 2] h2 (broadcastInDim ⟨3, ![1, B, E]⟩ ![1, 2] h1 y) (ix3 a b k) = y (ix2 b k) := by
  rw [broadcastInDim_apply _ h2 _ (ix3 a b k) (ix3 (0 : Fin 1) b k) (fun ax => by
    match ax with
    | ⟨0, _⟩ => show 0 = if (1 : ℕ) = 1 then 0 else a.val; rw [if_pos rfl]
    | ⟨1, _⟩ =>
      show b.val = if B = 1 then 0 else b.val
      split
      · have := b.isLt; omega
      · rfl
    | ⟨2, _⟩ =>
      show k.val = if E = 1 then 0 else k.val
      split
      · have := k.isLt; omega
      · rfl)]
  exact broadcastInDim_apply _ h1 y (ix3 (0 : Fin 1) b k) (ix2 b k) (fun ax => by
    match ax with
    | ⟨0, _⟩ =>
      show b.val = if B = 1 then 0 else b.val
      split
      · have := b.isLt; omega
      · rfl
    | ⟨1, _⟩ =>
      show k.val = if E = 1 then 0 else k.val
      split
      · have := k.isLt; omega
      · rfl)

end Repeat

section Pairs
variable {A B E C N : ℕ}

/-- The kernel's list of pairs, read at the row of pair `(a, b)`. -/
theorem pairs_kernel_apply (x : (⟨2, ![A, E]⟩ : Shape).Idx → EReal) (y : (⟨2, ![B, E]⟩ : Shape).Idx → EReal)
    (hx : (⟨2, ![A, E]⟩ : Shape).ShapeCasts ⟨3, ![A, 1, E]⟩) (hbx : (⟨3, ![A, 1, E]⟩ : Shape).Broadcasts ⟨3, ![A, B, E]⟩)
    (hy : (⟨2, ![B, E]⟩ : Shape).ShapeCasts ⟨3, ![1, B, E]⟩) (hby : (⟨3, ![1, B, E]⟩ : Shape).Broadcasts ⟨3, ![A, B, E]⟩)
    (hc : Shape.Concatenates [(⟨3, ![A, B, E]⟩ : Shape), ⟨3, ![A, B, E]⟩] ⟨3, ![A, B, C]⟩ 2) (hC : C = E + E)
    (hs : (⟨3, ![A, B, C]⟩ : Shape).ShapeCasts ⟨2, ![N, C]⟩)
    (a : Fin A) (b : Fin B) (n : Fin N) (hn : n.val = a.val * B + b.val) :
    (fun j : Fin C => shapeCast ⟨2, ![N, C]⟩ (concatenate ⟨3, ![A, B, C]⟩ 2
        [⟨⟨3, ![A, B, E]⟩, broadcastTo ⟨3, ![A, B, E]⟩ (shapeCast ⟨3, ![A, 1, E]⟩ x hx) hbx⟩,
         ⟨⟨3, ![A, B, E]⟩, broadcastTo ⟨3, ![A, B, E]⟩ (shapeCast ⟨3, ![1, B, E]⟩ y hy) hby⟩] hc) hs (ix2 n j))
      = cat2 C (row x a) (row y b) := by
  funext j
  rw [merge_apply _ hs a b n hn j, cat2_axis2_apply _ _ hc hC a b j]
  congr 1
  · funext k; exact repeat_mid_kernel_apply x hx hbx a b k
  · funext k; exact repeat_lead_kernel_apply y hy hby a b k

/-- The host's list of pairs, read at the row of pair `(a, b)`. -/
theorem pairs_host_apply (x : (⟨2, ![A, E]⟩ : Shape).Idx → EReal) (y : (⟨2, ![B, E]⟩ : Shape).Idx → EReal)
    (hx1 : (⟨2, ![A, E]⟩ : Shape).BroadcastsInDim ⟨3, ![A, 1, E]⟩ ![0, 2])
    (hx2 : (⟨3, ![A, 1, E]⟩ : Shape).BroadcastsInDim ⟨3, ![A, B, E]⟩ ![0, 1, 2])
    (hy1 : (⟨2, ![B, E]⟩ : Shape).BroadcastsInDim ⟨3, ![1, B, E]⟩ ![1, 2])
    (hy2 : (⟨3, ![1, B, E]⟩ : Shape).BroadcastsInDim ⟨3, ![A, B, E]⟩ ![0, 1, 2])
    (hc : Shape.Concatenates [(⟨3, ![A, B, E]⟩ : Shape), ⟨3, ![A, B, E]⟩] ⟨3, ![A, B, C]⟩ 2) (hC : C = E + E)
    (hs : (⟨3, ![A, B, C]⟩ : Shape).ShapeCasts ⟨2, ![N, C]⟩)
    (a : Fin A) (b : Fin B) (n : Fin N) (hn : n.val = a.val * B + b.val) :
    (fun j : Fin C => shapeCast ⟨2, ![N, C]⟩ (concatenate ⟨3, ![A, B, C]⟩ 2
        [⟨⟨3, ![A, B, E]⟩, broadcastInDim ⟨3, ![A, B, E]⟩ ![0, 1, 2] hx2 (broadcastInDim ⟨3, ![A, 1, E]⟩ ![0, 2] hx1 x)⟩,
         ⟨⟨3, ![A, B, E]⟩, broadcastInDim ⟨3, ![A, B, E]⟩ ![0, 1, 2] hy2 (broadcastInDim ⟨3, ![1, B, E]⟩ ![1, 2] hy1 y)⟩] hc) hs (ix2 n j))
      = cat2 C (row x a) (row y b) := by
  funext j
  rw [merge_apply _ hs a b n hn j, cat2_axis2_apply _ _ hc hC a b j]
  congr 1
  · funext k; exact repeat_mid_host_apply x hx1 hx2 a b k
  · funext k; exact repeat_lead_host_apply y hy1 hy2 a b k

end Pairs

section HostLayer
variable {R K H : ℕ}

/-- The host's layer: `dot_general` plus the bias broadcast in two steps, then the positive part against a
    zero constant broadcast from a scalar. -/
theorem layer_host_apply (d : DotDims ⟨2, ![R, K]⟩ ⟨2, ![K, H]⟩ ⟨2, ![R, H]⟩) (hd : d = DotDims.plain R K H)
    (z : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (d0 : Fin 0 → Fin 2) (hb : (⟨0, ![]⟩ : Shape).BroadcastsInDim ⟨2, ![R, H]⟩ d0) (n : Fin R) :
    (fun h : Fin H => maximumf (addf (Host.dotGeneral d none z W)
        (broadcastInDim ⟨2, ![R, H]⟩ ![0, 1] h2 (broadcastInDim ⟨2, ![1, H]⟩ ![1] h1 b)))
        (broadcastInDim ⟨2, ![R, H]⟩ d0 hb (constant (F := Ideal) ⟨0, ![]⟩ .f32 0x00000000#32)) (ix2 n h))
      = layer W (vec b) (row z n) := by
  funext h
  rw [relu_host_apply]
  show relu (fun j => addf (Host.dotGeneral d none z W)
      (broadcastInDim ⟨2, ![R, H]⟩ ![0, 1] h2 (broadcastInDim ⟨2, ![1, H]⟩ ![1] h1 b)) (ix2 n j)) h = relu (dense W b (row z n)) h
  congr 1
  funext j
  exact dense_host_apply' d hd z W b h1 h2 n j

/-- The kernel's layer as a whole row. -/
theorem layer_kernel_row {φ₁ φ₂ : FTy} (d : DotDims ⟨2, ![R, K]⟩ ⟨2, ![K, H]⟩ ⟨2, ![R, H]⟩) (hd : d = DotDims.plain R K H)
    (z : FVec Ideal ⟨2, ![R, K]⟩ φ₁) (W : FVec Ideal ⟨2, ![K, H]⟩ φ₂) (b : FVec Ideal ⟨2, ![1, H]⟩ .f32)
    (hbc : (⟨2, ![1, H]⟩ : Shape).Broadcasts ⟨2, ![R, H]⟩) (n : Fin R) :
    (fun h : Fin H => maximumf (addf (matmul d none z W (constant ⟨2, ![R, H]⟩ .f32 0x00000000#32)) (broadcastTo ⟨2, ![R, H]⟩ b hbc))
        (broadcast ⟨2, ![R, H]⟩ (Scalar.ofBits (F := Ideal) .f32 0x00000000#32)) (ix2 n h))
      = layer W (row0 b) (fun k => z (ix2 n k)) :=
  funext fun h => layer_kernel_apply d hd z W b hbc n h

end HostLayer

section Bias
variable {H : ℕ}

/-- A bias reshaped to one row, read column by column, is the bias position by position. -/
theorem row0_cast (b : (⟨1, ![H]⟩ : Shape).Idx → EReal) (hsc : (⟨1, ![H]⟩ : Shape).ShapeCasts ⟨2, ![1, H]⟩) :
    row0 (shapeCast ⟨2, ![1, H]⟩ b hsc) = vec b :=
  funext fun h => shapeCast_a_1a_apply b hsc (0 : Fin 1) h

end Bias

section DropUnit
variable {A B : ℕ} {α : Type}

/-- A trailing unit axis dropped: entry `(a, b)` reads `(a, b, 0)`. -/
theorem dropUnit_apply (v : (⟨3, ![A, B, 1]⟩ : Shape).Idx → α) (hs : (⟨3, ![A, B, 1]⟩ : Shape).ShapeCasts ⟨2, ![A, B]⟩)
    (a : Fin A) (b : Fin B) : shapeCast ⟨2, ![A, B]⟩ v hs (ix2 a b) = v (ix3 a b (0 : Fin 1)) :=
  shapeCast_apply v hs _ _ (by
    rw [Shape.rowMajor_val_three, Shape.rowMajor_val_two]
    show (a.val * B + b.val) * 1 + 0 = a.val * B + b.val
    rw [Nat.mul_one, Nat.add_zero])

end DropUnit

end CrossMlp

end
-- ==== Proof.KernelBlock.lean ====
/-
  What the kernel body leaves in its output block, one entry at a time.

  The body receives a block of 128 user rows and a block of 128 item rows of each embedding pair and the whole
  weights.  It lists the 128 · 128 pairs (pair `(p, q)` at row `p · 128 + q`), runs the dense layers on the whole
  list, and splits the list's leading axis back into `(p, q)`.  So entry `(p, q, 0)` of the output block is the
  score of user row `p` and item row `q` of the blocks.  The changes of float format in between are the identity
  on the extended reals.
-/
import proofs.«123985_j42992622633213_1_alg».proof.Proof.Gen.KernelIdeal.Frame
import proofs.«123985_j42992622633213_1_alg».proof.Proof.Cross

set_option maxRecDepth 16384

noncomputable section

open scoped BigOperators

namespace Cert.KernelIdeal.ScoreValue

open Cert.KernelIdeal Cert.KernelIdeal.Gen Idealize.ShloMosaic Idealize.ShloMosaic.ValueIdx RowOps CrossMlp

/-! ## Rows through a layer and through a concatenation -/

section Rows
variable {R K H : ℕ}

/-- A kernel layer of an array whose row `n` is `x`: row `n` of the result is the layer of `x`. -/
theorem layer_row {φ₁ φ₂ : FTy} (d : DotDims ⟨2, ![R, K]⟩ ⟨2, ![K, H]⟩ ⟨2, ![R, H]⟩) (hd : d = DotDims.plain R K H)
    (z : FVec Ideal ⟨2, ![R, K]⟩ φ₁) (W : FVec Ideal ⟨2, ![K, H]⟩ φ₂) (b : FVec Ideal ⟨2, ![1, H]⟩ .f32)
    (hbc : (⟨2, ![1, H]⟩ : Shape).Broadcasts ⟨2, ![R, H]⟩) (n : Fin R) (x : Fin K → EReal)
    (hz : (fun k => z (ix2 n k)) = x) :
    (fun h : Fin H => maximumf (addf (matmul d none z W (constant ⟨2, ![R, H]⟩ .f32 0x00000000#32)) (broadcastTo ⟨2, ![R, H]⟩ b hbc))
        (broadcast ⟨2, ![R, H]⟩ (Scalar.ofBits (F := Ideal) .f32 0x00000000#32)) (ix2 n h))
      = layer W (row0 b) x := by
  subst hz
  exact layer_kernel_row d hd z W b hbc n

/-- A concatenation along the columns of arrays whose rows `n` are `x` and `y`: row `n` is `x` then `y`. -/
theorem cat_row {A B C : ℕ} (u : (⟨2, ![R, A]⟩ : Shape).Idx → EReal) (v : (⟨2, ![R, B]⟩ : Shape).Idx → EReal)
    (hc : Shape.Concatenates [(⟨2, ![R, A]⟩ : Shape), ⟨2, ![R, B]⟩] ⟨2, ![R, C]⟩ 1) (hC : C = A + B) (n : Fin R)
    (x : Fin A → EReal) (y : Fin B → EReal) (hx : (fun k => u (ix2 n k)) = x) (hy : (fun k => v (ix2 n k)) = y) :
    (fun j : Fin C => concatenate ⟨2, ![R, C]⟩ 1 [⟨⟨2, ![R, A]⟩, u⟩, ⟨⟨2, ![R, B]⟩, v⟩] hc (ix2 n j)) = cat2 C x y := by
  subst hx hy
  exact funext fun j => cat2_apply u v hc hC n j

end Rows

/-! ## The body's pieces -/

/-- The list of pairs the body builds from a block of user rows and a block of item rows, at pair `(p, q)`. -/
theorem pairs_row (v0 v3 : Vec Ideal S128x64 .f32) (p q : Fin 128) (n : Fin 16384) (hn : n.val = p.val * 128 + q.val) :
    (fun j : Fin 128 => k0_pay2 (F := Ideal) v0 v3 (ix2 n j)) = cat2 128 (row v0 p) (row v3 q) := by
  unfold k0_pay2
  rw [shapeCast_self v0 shapeCasts_S128x64_S128x64, shapeCast_self v3 shapeCasts_S128x64_S128x64,
    shapeCast_self _ shapeCasts_S128x1x64_S128x1x64, shapeCast_self _ shapeCasts_S1x128x64_S1x128x64]
  exact pairs_kernel_apply (truncf .bf16 v0 bitsLt_bf16_f32 : FVec Ideal S128x64 .bf16) (truncf .bf16 v3 bitsLt_bf16_f32 : FVec Ideal S128x64 .bf16) shapeCasts_S128x64_S128x1x64
    broadcasts_S128x1x64_S128x128x64 shapeCasts_S128x64_S1x128x64 broadcasts_S1x128x64_S128x128x64
    concatenates_S128x128x64_S128x128x64_S128x128x128_d2 rfl shapeCasts_S128x128x128_S16384x128 p q n hn

/-- The same for the second embedding pair. -/
theorem pairs_row' (v6 v9 : Vec Ideal S128x64 .f32) (p q : Fin 128) (n : Fin 16384) (hn : n.val = p.val * 128 + q.val) :
    (fun j : Fin 128 => k0_pay3 (F := Ideal) v6 v9 (ix2 n j)) = cat2 128 (row v6 p) (row v9 q) := by
  unfold k0_pay3
  rw [shapeCast_self v6 shapeCasts_S128x64_S128x64, shapeCast_self v9 shapeCasts_S128x64_S128x64,
    shapeCast_self _ shapeCasts_S128x1x64_S128x1x64, shapeCast_self _ shapeCasts_S1x128x64_S1x128x64]
  exact pairs_kernel_apply (truncf .bf16 v6 bitsLt_bf16_f32 : FVec Ideal S128x64 .bf16) (truncf .bf16 v9 bitsLt_bf16_f32 : FVec Ideal S128x64 .bf16) shapeCasts_S128x64_S128x1x64
    broadcasts_S128x1x64_S128x128x64 shapeCasts_S128x64_S1x128x64 broadcasts_S1x128x64_S128x128x64
    concatenates_S128x128x64_S128x128x64_S128x128x128_d2 rfl shapeCasts_S128x128x128_S16384x128 p q n hn

/-! The activations after each layer, as arrays over the whole list of pairs. -/

/-- After the first layer: 64 features per pair. -/
abbrev act1 (v27 : FVec Ideal S16384x128 .bf16) (v30 : FVec Ideal S128x64 .bf16) (v32 : FVec Ideal S1x64 .f32) : FVec Ideal S16384x64 .f32 :=
  maximumf (addf (matmul dot_S16384x128_S128x64_S16384x64_1_0_0_1_n_n none v27 v30 (constant S16384x64 .f32 0x00000000#32))
    (broadcastTo S16384x64 v32 broadcasts_S1x64_S16384x64)) (broadcast S16384x64 (Scalar.ofBits (F := Ideal) .f32 0x00000000#32))

/-- After the second layer: 32 features per pair. -/
abbrev act2 (a1 : FVec Ideal S16384x64 .f32) (v35 : FVec Ideal S64x32 .bf16) (v37 : FVec Ideal S1x32 .f32) : FVec Ideal S16384x32 .f32 :=
  maximumf (addf (matmul dot_S16384x64_S64x32_S16384x32_1_0_0_1_n_n none (truncf .bf16 a1 bitsLt_bf16_f32) v35 (constant S16384x32 .f32 0x00000000#32))
    (broadcastTo S16384x32 v37 broadcasts_S1x32_S16384x32)) (broadcast S16384x32 (Scalar.ofBits (F := Ideal) .f32 0x00000000#32))

/-- After the third layer: 16 features per pair. -/
abbrev act3 (a2 : FVec Ideal S16384x32 .f32) (w4 : FVec Ideal S32x16 .bf16) (b4 : FVec Ideal S1x16 .f32) : FVec Ideal S16384x16 .f32 :=
  maximumf (addf (matmul dot_S16384x32_S32x16_S16384x16_1_0_0_1_n_n none (truncf .bf16 a2 bitsLt_bf16_f32) w4 (constant S16384x16 .f32 0x00000000#32))
    (broadcastTo S16384x16 b4 broadcasts_S1x16_S16384x16)) (broadcast S16384x16 (Scalar.ofBits (F := Ideal) .f32 0x00000000#32))

/-- The 144 features of the last layer: the first pair's 128, then the third layer's 16. -/
abbrev feat (v19 : FVec Ideal S16384x128 .bf16) (a3 : FVec Ideal S16384x16 .f32) : FVec Ideal S16384x144 .bf16 :=
  concatenate S16384x144 1 [⟨S16384x128, v19⟩, ⟨S16384x16, truncf .bf16 a3 bitsLt_bf16_f32⟩] concatenates_S16384x128_S16384x16_S16384x144_d1

/-- The scores of the whole list of pairs, one column. -/
abbrev act4 (f : FVec Ideal S16384x144 .bf16) (wo : FVec Ideal S144x1 .bf16) (bo : FVec Ideal S1x1 .f32) : FVec Ideal S16384x1 .f32 :=
  maximumf (addf (matmul dot_S16384x144_S144x1_S16384x1_1_0_0_1_n_n none f wo (constant S16384x1 .f32 0x00000000#32))
    (broadcastTo S16384x1 bo broadcasts_S1x1_S16384x1)) (broadcast S16384x1 (Scalar.ofBits (F := Ideal) .f32 0x00000000#32))

theorem act1_row (v27 : FVec Ideal S16384x128 .bf16) (v30 : FVec Ideal S128x64 .bf16) (v32 : FVec Ideal S1x64 .f32) (n : Fin 16384)
    (x : Fin 128 → EReal) (hx : (fun j => v27 (ix2 n j)) = x) :
    (fun h : Fin 64 => act1 v27 v30 v32 (ix2 n h)) = layer v30 (row0 v32) x :=
  layer_row dot_S16384x128_S128x64_S16384x64_1_0_0_1_n_n rfl v27 v30 v32 broadcasts_S1x64_S16384x64 n x hx

theorem act2_row (a1 : FVec Ideal S16384x64 .f32) (v35 : FVec Ideal S64x32 .bf16) (v37 : FVec Ideal S1x32 .f32) (n : Fin 16384)
    (x : Fin 64 → EReal) (hx : (fun j => a1 (ix2 n j)) = x) :
    (fun h : Fin 32 => act2 a1 v35 v37 (ix2 n h)) = layer v35 (row0 v37) x :=
  layer_row dot_S16384x64_S64x32_S16384x32_1_0_0_1_n_n rfl (truncf .bf16 a1 bitsLt_bf16_f32) v35 v37 broadcasts_S1x32_S16384x32 n x hx

theorem act3_row (a2 : FVec Ideal S16384x32 .f32) (w4 : FVec Ideal S32x16 .bf16) (b4 : FVec Ideal S1x16 .f32) (n : Fin 16384)
    (x : Fin 32 → EReal) (hx : (fun j => a2 (ix2 n j)) = x) :
    (fun h : Fin 16 => act3 a2 w4 b4 (ix2 n h)) = layer w4 (row0 b4) x :=
  layer_row dot_S16384x32_S32x16_S16384x16_1_0_0_1_n_n rfl (truncf .bf16 a2 bitsLt_bf16_f32) w4 b4 broadcasts_S1x16_S16384x16 n x hx

theorem feat_row (v19 : FVec Ideal S16384x128 .bf16) (a3 : FVec Ideal S16384x16 .f32) (n : Fin 16384)
    (x : Fin 128 → EReal) (y : Fin 16 → EReal) (hx : (fun j => v19 (ix2 n j)) = x) (hy : (fun j => a3 (ix2 n j)) = y) :
    (fun j : Fin 144 => feat v19 a3 (ix2 n j)) = cat2 144 x y :=
  cat_row v19 (truncf .bf16 a3 bitsLt_bf16_f32) concatenates_S16384x128_S16384x16_S16384x144_d1 rfl n x y hx hy

theorem act4_row (f : FVec Ideal S16384x144 .bf16) (wo : FVec Ideal S144x1 .bf16) (bo : FVec Ideal S1x1 .f32) (n : Fin 16384)
    (x : Fin 144 → EReal) (hx : (fun j => f (ix2 n j)) = x) :
    (fun h : Fin 1 => act4 f wo bo (ix2 n h)) = layer wo (row0 bo) x :=
  layer_row dot_S16384x144_S144x1_S16384x1_1_0_0_1_n_n rfl f wo bo broadcasts_S1x1_S16384x1 n x hx

/-- The dense stack on the list of pairs, read at pair `(p, q)` of the block the body stores. -/
theorem stack_apply (v19 v27 : FVec Ideal S16384x128 .bf16) (v30 : FVec Ideal S128x64 .bf16) (v32 : FVec Ideal S1x64 .f32)
    (v35 : FVec Ideal S64x32 .bf16) (v37 : FVec Ideal S1x32 .f32) (v39 : FVec Ideal S32x16 .f32) (v41 : Vec Ideal S1x16 .f32)
    (v43 : Vec Ideal S144x1 .f32) (v46 : Vec Ideal S1x1 .f32) (p q : Fin 128) (n : Fin 16384) (hn : n.val = p.val * 128 + q.val)
    (xmf xmlp : Fin 128 → EReal) (hmf : (fun j => v19 (ix2 n j)) = xmf) (hmlp : (fun j => v27 (ix2 n j)) = xmlp) :
    k0_pay1 (F := Ideal) v19 v27 v30 v32 v35 v37 v39 v41 v43 v46 (ix3 p q (0 : Fin 1))
      = layer v43 (row0 v46) (cat2 144 xmf (layer v39 (row0 v41) (layer v35 (row0 v37) (layer v30 (row0 v32) xmlp)))) 0 := by
  unfold k0_pay1
  rw [shapeCast_self v41 shapeCasts_S1x16_S1x16, shapeCast_self v43 shapeCasts_S144x1_S144x1, shapeCast_self v46 shapeCasts_S1x1_S1x1]
  show shapeCast S128x128x1 (act4 (feat v19 (act3 (act2 (act1 v27 v30 v32) v35 v37) (truncf .bf16 v39 bitsLt_bf16_f32) v41))
      (truncf .bf16 v43 bitsLt_bf16_f32) v46) shapeCasts_S16384x1_S128x128x1 (ix3 p q (0 : Fin 1)) = _
  rw [split_apply _ shapeCasts_S16384x1_S128x128x1 p q n hn (0 : Fin 1)]
  exact congrFun (act4_row _ (truncf .bf16 v43 bitsLt_bf16_f32) v46 n _
    (feat_row v19 _ n _ _ hmf
      (act3_row _ (truncf .bf16 v39 bitsLt_bf16_f32) v41 n _
        (act2_row _ v35 v37 n _ (act1_row v27 v30 v32 n xmlp hmlp))))) 0

/-! ## The output block -/

theorem hz2 : (![0, 0] : Fin 2 → Nat) = fun _ => 0 := funext fun a => by fin_cases a <;> rfl
theorem hz3 : (![0, 0, 0] : Fin 3 → Nat) = fun _ => 0 := funext fun a => by fin_cases a <;> rfl

/-- Entry `(p, q, 0)` of the block the body stores is the score of user row `p` and item row `q` of the input blocks. -/
theorem block_apply (x0 x1 x2 x3 x4 : Vec Ideal S128x64 .f32) (x5 : Vec Ideal S1x64 .f32) (x6 : Vec Ideal S64x32 .f32)
    (x7 : Vec Ideal S1x32 .f32) (x8 : Vec Ideal S32x16 .f32) (x9 : Vec Ideal S1x16 .f32) (x10 : Vec Ideal S144x1 .f32)
    (x11 : Vec Ideal S1x1 .f32) (p q : Fin 128) :
    out0_12 (F := Ideal) x0 x1 x2 x3 x4 x5 x6 x7 x8 x9 x10 x11 (ix3 p q (0 : Fin 1))
      = score (row x0 p) (row x1 q) (row x2 p) (row x3 q) x4 (row0 x5) x6 (row0 x7) x8 (row0 x9) x10 (row0 x11) := by
  unfold out0_12
  rw [View.canon_unit_zero hz3]
  simp only [View.ld_unit_zero (S := S128x64) hz2, View.ld_unit_zero (S := S1x64) hz2, View.ld_unit_zero (S := S64x32) hz2,
    View.ld_unit_zero (S := S1x32) hz2, View.ld_unit_zero (S := S32x16) hz2, View.ld_unit_zero (S := S1x16) hz2,
    View.ld_unit_zero (S := S144x1) hz2, View.ld_unit_zero (S := S1x1) hz2]
  have hn : (⟨p.val * 128 + q.val, by have := p.isLt; have := q.isLt; omega⟩ : Fin 16384).val = p.val * 128 + q.val := rfl
  refine (stack_apply _ _ _ _ _ _ _ _ _ _ p q _ hn _ _ (pairs_row x0 x1 p q _ hn) (pairs_row' x2 x3 p q _ hn)).trans ?_
  unfold k0_pay4 k0_pay5 k0_pay6 k0_pay7 k0_pay8
  rw [shapeCast_self x4 shapeCasts_S128x64_S128x64, shapeCast_self x5 shapeCasts_S1x64_S1x64, shapeCast_self x6 shapeCasts_S64x32_S64x32,
    shapeCast_self x7 shapeCasts_S1x32_S1x32, shapeCast_self x8 shapeCasts_S32x16_S32x16]
  rfl

end Cert.KernelIdeal.ScoreValue

end
-- ==== Proof.KernelValue.lean ====
/-
  From the output blocks to the kernel's result.

  The grid has 4 · 8 points; point `(g₀, g₁)` stages user rows `128 g₀ …` and item rows `128 g₁ …`, all the
  weights, and writes back output block `(g₀, g₁, 0)`.  Entry `(p, q, 0)` of that block is the score of the
  block's user row `p` and item row `q`, so it is the score of rows `128 g₀ + p` and `128 g₁ + q` of the gathered
  embeddings: every block is the restriction of one array of scores, and the 32 blocks tile it.  The host then
  drops the trailing unit axis.  The arrays the region is entered with are the host's gathers, transposes and
  reshapes of the arguments: the four embedding arrays are gathers of the tables at the ids, the weights are
  transposed, the biases reshaped to one row.  With those named, the kernel's result is the same array of scores
  the reference's result is.
-/
import proofs.«123985_j42992622633213_1_alg».proof.Proof.KernelBlock
import Idealize.ShloMosaic.Lib.Pipeline.Value
import Idealize.ShloMosaic.Lib.StableHlo.Run

set_option maxRecDepth 16384

noncomputable section

open scoped BigOperators

namespace Cert.KernelIdeal.ScoreValue

open Cert.KernelIdeal Cert.KernelIdeal.Gen Idealize.ShloMosaic Idealize.ShloMosaic.TcCoe Idealize.SL.Sem
open Idealize.ShloMosaic.ValueIdx RowOps CrossMlp
open Idealize.ShloMosaic.Pipeline (Dat)

variable (m : (ℓ : Loc nD τ sig) → Buf (Elt Ideal) ℓ) (ρ : Dev nD → PrngReg)

/-! ## The index maps, decided once over the grid -/

/-- Each input window's block index in terms of the output window's: the user blocks follow the output's first
    coordinate, the item blocks its second, the weights are staged whole; and the output's ranges. -/
theorem idx_facts : ∀ t : Fin cfg0.N, win0_0.index t (0 : Fin 2) = win0_12.index t (0 : Fin 3)
    ∧ win0_0.index t (1 : Fin 2) = 0
    ∧ win0_1.index t (0 : Fin 2) = win0_12.index t (1 : Fin 3)
    ∧ win0_1.index t (1 : Fin 2) = 0
    ∧ win0_2.index t (0 : Fin 2) = win0_12.index t (0 : Fin 3)
    ∧ win0_2.index t (1 : Fin 2) = 0
    ∧ win0_3.index t (0 : Fin 2) = win0_12.index t (1 : Fin 3)
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 3) ≤ 3
    ∧ win0_12.index t (1 : Fin 3) ≤ 7
    ∧ win0_12.index t (2 : Fin 3) = 0 :=
  (by decide +kernel : ∀ t : Fin grid0.N, _)

/-- Every output block is some point's. -/
theorem idx_onto : ∀ (q0 : Fin 4) (q1 : Fin 8), ∃ t : Fin cfg0.N, win0_12.index t = ![q0.val, q1.val, 0] :=
  (by decide +kernel : ∀ (q0 : Fin 4) (q1 : Fin 8), ∃ t : Fin grid0.N, win0_12.index t = ![q0.val, q1.val, 0])

/-! ## The input blocks, read off the arrays the region is entered with -/

/-- Window 4 stages its whole array at every point. -/
theorem blk4_eq (c : Dev nD) (t : Fin cfg0.N) : (iblk m c 4 t : Vec Ideal S128x64 .f32) = V m c main_v28 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, b0, b1, b2⟩ := idx_facts t
  funext y
  show V m c main_v28 (((cfg0.win 4).blk t).view.emb y) = V m c main_v28 y
  refine congrArg (V m c main_v28) (funext fun a => Fin.ext ?_)
  match a with
  | ⟨0, _⟩ => show win0_4.index t (0 : Fin 2) * 128 + 1 * (y 0).val = (y 0).val; rw [e4_0]; omega
  | ⟨1, _⟩ => show win0_4.index t (1 : Fin 2) * 64 + 1 * (y 1).val = (y 1).val; rw [e4_1]; omega

/-- Window 5 stages its whole array at every point. -/
theorem blk5_eq (c : Dev nD) (t : Fin cfg0.N) : (iblk m c 5 t : Vec Ideal S1x64 .f32) = V m c main_v32 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, b0, b1, b2⟩ := idx_facts t
  funext y
  show V m c main_v32 (((cfg0.win 5).blk t).view.emb y) = V m c main_v32 y
  refine congrArg (V m c main_v32) (funext fun a => Fin.ext ?_)
  match a with
  | ⟨0, _⟩ => show win0_5.index t (0 : Fin 2) * 1 + 1 * (y 0).val = (y 0).val; rw [e5_0]; omega
  | ⟨1, _⟩ => show win0_5.index t (1 : Fin 2) * 64 + 1 * (y 1).val = (y 1).val; rw [e5_1]; omega

/-- Window 6 stages its whole array at every point. -/
theorem blk6_eq (c : Dev nD) (t : Fin cfg0.N) : (iblk m c 6 t : Vec Ideal S64x32 .f32) = V m c main_v29 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, b0, b1, b2⟩ := idx_facts t
  funext y
  show V m c main_v29 (((cfg0.win 6).blk t).view.emb y) = V m c main_v29 y
  refine congrArg (V m c main_v29) (funext fun a => Fin.ext ?_)
  match a with
  | ⟨0, _⟩ => show win0_6.index t (0 : Fin 2) * 64 + 1 * (y 0).val = (y 0).val; rw [e6_0]; omega
  | ⟨1, _⟩ => show win0_6.index t (1 : Fin 2) * 32 + 1 * (y 1).val = (y 1).val; rw [e6_1]; omega

/-- Window 7 stages its whole array at every point. -/
theorem blk7_eq (c : Dev nD) (t : Fin cfg0.N) : (iblk m c 7 t : Vec Ideal S1x32 .f32) = V m c main_v33 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, b0, b1, b2⟩ := idx_facts t
  funext y
  show V m c main_v33 (((cfg0.win 7).blk t).view.emb y) = V m c main_v33 y
  refine congrArg (V m c main_v33) (funext fun a => Fin.ext ?_)
  match a with
  | ⟨0, _⟩ => show win0_7.index t (0 : Fin 2) * 1 + 1 * (y 0).val = (y 0).val; rw [e7_0]; omega
  | ⟨1, _⟩ => show win0_7.index t (1 : Fin 2) * 32 + 1 * (y 1).val = (y 1).val; rw [e7_1]; omega

/-- Window 8 stages its whole array at every point. -/
theorem blk8_eq (c : Dev nD) (t : Fin cfg0.N) : (iblk m c 8 t : Vec Ideal S32x16 .f32) = V m c main_v30 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, b0, b1, b2⟩ := idx_facts t
  funext y
  show V m c main_v30 (((cfg0.win 8).blk t).view.emb y) = V m c main_v30 y
  refine congrArg (V m c main_v30) (funext fun a => Fin.ext ?_)
  match a with
  | ⟨0, _⟩ => show win0_8.index t (0 : Fin 2) * 32 + 1 * (y 0).val = (y 0).val; rw [e8_0]; omega
  | ⟨1, _⟩ => show win0_8.index t (1 : Fin 2) * 16 + 1 * (y 1).val = (y 1).val; rw [e8_1]; omega

/-- Window 9 stages its whole array at every point. -/
theorem blk9_eq (c : Dev nD) (t : Fin cfg0.N) : (iblk m c 9 t : Vec Ideal S1x16 .f32) = V m c main_v34 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, b0, b1, b2⟩ := idx_facts t
  funext y
  show V m c main_v34 (((cfg0.win 9).blk t).view.emb y) = V m c main_v34 y
  refine congrArg (V m c main_v34) (funext fun a => Fin.ext ?_)
  match a with
  | ⟨0, _⟩ => show win0_9.index t (0 : Fin 2) * 1 + 1 * (y 0).val = (y 0).val; rw [e9_0]; omega
  | ⟨1, _⟩ => show win0_9.index t (1 : Fin 2) * 16 + 1 * (y 1).val = (y 1).val; rw [e9_1]; omega

/-- Window 10 stages its whole array at every point. -/
theorem blk10_eq (c : Dev nD) (t : Fin cfg0.N) : (iblk m c 10 t : Vec Ideal S144x1 .f32) = V m c main_v31 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, b0, b1, b2⟩ := idx_facts t
  funext y
  show V m c main_v31 (((cfg0.win 10).blk t).view.emb y) = V m c main_v31 y
  refine congrArg (V m c main_v31) (funext fun a => Fin.ext ?_)
  match a with
  | ⟨0, _⟩ => show win0_10.index t (0 : Fin 2) * 144 + 1 * (y 0).val = (y 0).val; rw [e10_0]; omega
  | ⟨1, _⟩ => show win0_10.index t (1 : Fin 2) * 1 + 1 * (y 1).val = (y 1).val; rw [e10_1]; omega

/-- Window 11 stages its whole array at every point. -/
theorem blk11_eq (c : Dev nD) (t : Fin cfg0.N) : (iblk m c 11 t : Vec Ideal S1x1 .f32) = V m c main_v35 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, b0, b1, b2⟩ := idx_facts t
  funext y
  show V m c main_v35 (((cfg0.win 11).blk t).view.emb y) = V m c main_v35 y
  refine congrArg (V m c main_v35) (funext fun a => Fin.ext ?_)
  match a with
  | ⟨0, _⟩ => show win0_11.index t (0 : Fin 2) * 1 + 1 * (y 0).val = (y 0).val; rw [e11_0]; omega
  | ⟨1, _⟩ => show win0_11.index t (1 : Fin 2) * 1 + 1 * (y 1).val = (y 1).val; rw [e11_1]; omega

/-- Row `p` of window 0's block at point `t` is the array's row at the output block's offset on the user axis. -/
theorem blk0_row (c : Dev nD) (t : Fin cfg0.N) (p q : Fin 128) :
    row (iblk m c 0 t : Vec Ideal S128x64 .f32) p
      = row (V m c main_v6) ((((cfg0.win 12).blk t).view.emb (ix3 p q (0 : Fin 1))) 0) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, b0, b1, b2⟩ := idx_facts t
  funext k
  show V m c main_v6 (((cfg0.win 0).blk t).view.emb (ix2 p k)) = V m c main_v6 (ix2 ((((cfg0.win 12).blk t).view.emb (ix3 p q (0 : Fin 1))) 0) k)
  refine congrArg (V m c main_v6) (funext fun a => Fin.ext ?_)
  match a with
  | ⟨0, _⟩ => show win0_0.index t (0 : Fin 2) * 128 + 1 * p.val = win0_12.index t (0 : Fin 3) * 128 + 1 * p.val; rw [e0_0]
  | ⟨1, _⟩ => show win0_0.index t (1 : Fin 2) * 64 + 1 * k.val = k.val; rw [e0_1]; omega

/-- Row `q` of window 1's block at point `t` is the array's row at the output block's offset on the item axis. -/
theorem blk1_row (c : Dev nD) (t : Fin cfg0.N) (p q : Fin 128) :
    row (iblk m c 1 t : Vec Ideal S128x64 .f32) q
      = row (V m c main_v13) ((((cfg0.win 12).blk t).view.emb (ix3 p q (0 : Fin 1))) 1) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, b0, b1, b2⟩ := idx_facts t
  funext k
  show V m c main_v13 (((cfg0.win 1).blk t).view.emb (ix2 q k)) = V m c main_v13 (ix2 ((((cfg0.win 12).blk t).view.emb (ix3 p q (0 : Fin 1))) 1) k)
  refine congrArg (V m c main_v13) (funext fun a => Fin.ext ?_)
  match a with
  | ⟨0, _⟩ => show win0_1.index t (0 : Fin 2) * 128 + 1 * q.val = win0_12.index t (1 : Fin 3) * 128 + 1 * q.val; rw [e1_0]
  | ⟨1, _⟩ => show win0_1.index t (1 : Fin 2) * 64 + 1 * k.val = k.val; rw [e1_1]; omega

/-- Row `p` of window 2's block at point `t` is the array's row at the output block's offset on the user axis. -/
theorem blk2_row (c : Dev nD) (t : Fin cfg0.N) (p q : Fin 128) :
    row (iblk m c 2 t : Vec Ideal S128x64 .f32) p
      = row (V m c main_v20) ((((cfg0.win 12).blk t).view.emb (ix3 p q (0 : Fin 1))) 0) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, b0, b1, b2⟩ := idx_facts t
  funext k
  show V m c main_v20 (((cfg0.win 2).blk t).view.emb (ix2 p k)) = V m c main_v20 (ix2 ((((cfg0.win 12).blk t).view.emb (ix3 p q (0 : Fin 1))) 0) k)
  refine congrArg (V m c main_v20) (funext fun a => Fin.ext ?_)
  match a with
  | ⟨0, _⟩ => show win0_2.index t (0 : Fin 2) * 128 + 1 * p.val = win0_12.index t (0 : Fin 3) * 128 + 1 * p.val; rw [e2_0]
  | ⟨1, _⟩ => show win0_2.index t (1 : Fin 2) * 64 + 1 * k.val = k.val; rw [e2_1]; omega

/-- Row `q` of window 3's block at point `t` is the array's row at the output block's offset on the item axis. -/
theorem blk3_row (c : Dev nD) (t : Fin cfg0.N) (p q : Fin 128) :
    row (iblk m c 3 t : Vec Ideal S128x64 .f32) q
      = row (V m c main_v27) ((((cfg0.win 12).blk t).view.emb (ix3 p q (0 : Fin 1))) 1) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, b0, b1, b2⟩ := idx_facts t
  funext k
  show V m c main_v27 (((cfg0.win 3).blk t).view.emb (ix2 q k)) = V m c main_v27 (ix2 ((((cfg0.win 12).blk t).view.emb (ix3 p q (0 : Fin 1))) 1) k)
  refine congrArg (V m c main_v27) (funext fun a => Fin.ext ?_)
  match a with
  | ⟨0, _⟩ => show win0_3.index t (0 : Fin 2) * 128 + 1 * q.val = win0_12.index t (1 : Fin 3) * 128 + 1 * q.val; rw [e3_0]
  | ⟨1, _⟩ => show win0_3.index t (1 : Fin 2) * 64 + 1 * k.val = k.val; rw [e3_1]; omega

/-! ## One array of scores whose restrictions the blocks are -/

/-- The scores of every (user row, item row) pair of the arrays the region is entered with, with a trailing unit axis. -/
def blockScores (c : Dev nD) : S512x1024x1.Idx → EReal := fun i =>
  score (row (V m c main_v6) (i 0)) (row (V m c main_v13) (i 1)) (row (V m c main_v20) (i 0)) (row (V m c main_v27) (i 1))
    (V m c main_v28) (row0 (V m c main_v32)) (V m c main_v29) (row0 (V m c main_v33)) (V m c main_v30) (row0 (V m c main_v34))
    (V m c main_v31) (row0 (V m c main_v35))

/-- What point `t` writes back is block `t` of the scores. -/
theorem flushed_eq (c : Dev nD) (t : Fin cfg0.N) :
    (dats m 0 c).flushed 12 t = ((cfg0.win 12).blk t).view.read (Elt Ideal) (blockScores m c) := by
  show (cfg0.win 12).cut (grid0.coords t) ((dats m 0 c).after 12 t) = _
  rw [after0_12]
  funext j
  show out0_12 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) j = blockScores m c (((cfg0.win 12).blk t).view.emb j)
  obtain ⟨p, q, z, rfl⟩ : ∃ (p q : Fin 128) (z : Fin 1), j = ix3 p q z := ⟨j 0, j 1, j 2, eq_ix3 j⟩
  obtain rfl : z = 0 := Subsingleton.elim _ _
  refine (block_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) p q).trans ?_
  unfold blockScores
  rw [blk0_row m c t p q, blk1_row m c t p q, blk2_row m c t p q, blk3_row m c t p q, blk4_eq m c t, blk5_eq m c t, blk6_eq m c t,
    blk7_eq m c t, blk8_eq m c t, blk9_eq m c t, blk10_eq m c t, blk11_eq m c t]

/-- An index of the output array is in point `t`'s block iff each coordinate is in the block's range on its axis. -/
theorem mem_blk (t : Fin cfg0.N) (i : S512x1024x1.Idx) :
    i ∈ ((cfg0.win 12).blk t).view.set ↔ ∀ a : Fin 3, win0_12.index t a * S128x128x1.size a ≤ (i a).val ∧ (i a).val < win0_12.index t a * S128x128x1.size a + S128x128x1.size a := by
  show i ∈ ((View.whole main_v36).slice (win0_12.rect t)).set ↔ _
  rw [View.set_slice_whole, Rect.mem_set_unit]
  exact Iff.rfl

/-- The blocks tile the output array. -/
theorem cover (i : S512x1024x1.Idx) : ∃ t : Fin cfg0.N, (cfg0.win 12).flush t = true ∧ i ∈ ((cfg0.win 12).blk t).view.set := by
  have hi0 : (i 0).val < 512 := (i 0).isLt
  have hi1 : (i 1).val < 1024 := (i 1).isLt
  have hi2 : (i 2).val < 1 := (i 2).isLt
  obtain ⟨t, ht⟩ := idx_onto ⟨(i 0).val / 128, by omega⟩ ⟨(i 1).val / 128, by omega⟩
  have q0 : win0_12.index t (0 : Fin 3) = (i 0).val / 128 := congrFun ht 0
  have q1 : win0_12.index t (1 : Fin 3) = (i 1).val / 128 := congrFun ht 1
  have q2 : win0_12.index t (2 : Fin 3) = 0 := congrFun ht 2
  refine ⟨t, flush0_12 t, ?_⟩
  rw [mem_blk]
  intro a
  match a with
  | ⟨0, _⟩ => show win0_12.index t (0 : Fin 3) * 128 ≤ (i 0).val ∧ (i 0).val < win0_12.index t (0 : Fin 3) * 128 + 128; omega
  | ⟨1, _⟩ => show win0_12.index t (1 : Fin 3) * 128 ≤ (i 1).val ∧ (i 1).val < win0_12.index t (1 : Fin 3) * 128 + 128; omega
  | ⟨2, _⟩ => show win0_12.index t (2 : Fin 3) * 1 ≤ (i 2).val ∧ (i 2).val < win0_12.index t (2 : Fin 3) * 1 + 1; omega

/-- The output array after the run is the array of scores. -/
theorem final (c : Dev nD) : (dats m 0 c).arrAt 12 cfg0.N = blockScores m c :=
  (dats m 0 c).arrAt_eq_of_cover 12 (blockScores m c) (fun t _ => flushed_eq m c t) cover

/-! ## The host's last line -/

/-- The result buffer after the host's reshape: the scores without the trailing unit axis. -/
theorem tail_eq (c : Dev nD) :
    Pipeline.afterTail₀ cfgs (dats m) 0 (V0 m) [hostOps1] c main_v37
      = shapeCast S512x1024 (blockScores m c) shapeCasts_S512x1024x1_S512x1024 := by
  unfold Pipeline.afterTail₀
  show StableHlo.after hostOps1 _ (Proc.devRef .tc main_v37) = _
  after_results
  exact congrArg (fun x => shapeCast S512x1024 x shapeCasts_S512x1024x1_S512x1024)
    ((Pipeline.withArrays_arr spec0 launch0.win.arr_inj c _ _ 12).trans (final m c))

/-! ## The run, read -/

/-- Every weakly fair execution terminates with the result at the scores and the arguments unchanged. -/
theorem run : θ_run defs (onTc (τ := τ) (main (F := Ideal))) ⟨m, fun _ => 0, ρ⟩ fun r => ∀ c : Dev nD,
      r.2.mem ((c.tc : Thread nD τ).loc main_v37) = shapeCast S512x1024 (blockScores m c) shapeCasts_S512x1024x1_S512x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c).2 main_v37 (Pipeline.mem_restRefs_of main_v37 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c))⟩)
    (run_main m ρ)

/-! ## The result as the scores of the gathered rows -/

/-- The rows of a user table the ids select (a negative id counted from the table's end, as the program spells it). -/
abbrev userRows (tab : FVec Ideal S100000x64 .f32) (ids : IVec S512 32) : FVec Ideal S512x64 .f32 :=
  Host.gather gather_S100000x64_S512x1_S512x64_1_0_n_n_0_1_164 tab
    (broadcastInDim S512x1 ![0] bcast_S512_S512x1_0
      (select (cmpi .slt ids (broadcastInDim S512 ![] bcast_S_S512 (constantI S_ 32 0#32)))
        (addi ids (broadcastInDim S512 ![] bcast_S_S512 (constantI S_ 32 100000#32))) ids))

/-- The rows of an item table the ids select. -/
abbrev itemRows (tab : FVec Ideal S50000x64 .f32) (ids : IVec S1024 32) : FVec Ideal S1024x64 .f32 :=
  Host.gather gather_S50000x64_S1024x1_S1024x64_1_0_n_n_0_1_164 tab
    (broadcastInDim S1024x1 ![0] bcast_S1024_S1024x1_0
      (select (cmpi .slt ids (broadcastInDim S1024 ![] bcast_S_S1024 (constantI S_ 32 0#32)))
        (addi ids (broadcastInDim S1024 ![] bcast_S_S1024 (constantI S_ 32 50000#32))) ids))

/-! ## The arrays the region is entered with -/

theorem V_v6 (c : Dev nD) : (V m c main_v6 : S512x64.Idx → EReal) = userRows (m ((c.tc : Thread nD τ).loc main_arg2)) (m ((c.tc : Thread nD τ).loc main_arg0)) := by
  show StableHlo.after hostOps0 (fun b => m (c, b)) (Proc.devRef .tc main_v6) = _
  after_results
theorem V_v13 (c : Dev nD) : (V m c main_v13 : S1024x64.Idx → EReal) = itemRows (m ((c.tc : Thread nD τ).loc main_arg3)) (m ((c.tc : Thread nD τ).loc main_arg1)) := by
  show StableHlo.after hostOps0 (fun b => m (c, b)) (Proc.devRef .tc main_v13) = _
  after_results
theorem V_v20 (c : Dev nD) : (V m c main_v20 : S512x64.Idx → EReal) = userRows (m ((c.tc : Thread nD τ).loc main_arg4)) (m ((c.tc : Thread nD τ).loc main_arg0)) := by
  show StableHlo.after hostOps0 (fun b => m (c, b)) (Proc.devRef .tc main_v20) = _
  after_results
theorem V_v27 (c : Dev nD) : (V m c main_v27 : S1024x64.Idx → EReal) = itemRows (m ((c.tc : Thread nD τ).loc main_arg5)) (m ((c.tc : Thread nD τ).loc main_arg1)) := by
  show StableHlo.after hostOps0 (fun b => m (c, b)) (Proc.devRef .tc main_v27) = _
  after_results
theorem V_v28 (c : Dev nD) : (V m c main_v28 : S128x64.Idx → EReal) = transpose S128x64 [1, 0] (m ((c.tc : Thread nD τ).loc main_arg6)) transposes_S64x128_S128x64_1_0 := by
  show StableHlo.after hostOps0 (fun b => m (c, b)) (Proc.devRef .tc main_v28) = _
  after_results
theorem V_v29 (c : Dev nD) : (V m c main_v29 : S64x32.Idx → EReal) = transpose S64x32 [1, 0] (m ((c.tc : Thread nD τ).loc main_arg8)) transposes_S32x64_S64x32_1_0 := by
  show StableHlo.after hostOps0 (fun b => m (c, b)) (Proc.devRef .tc main_v29) = _
  after_results
theorem V_v30 (c : Dev nD) : (V m c main_v30 : S32x16.Idx → EReal) = transpose S32x16 [1, 0] (m ((c.tc : Thread nD τ).loc main_arg10)) transposes_S16x32_S32x16_1_0 := by
  show StableHlo.after hostOps0 (fun b => m (c, b)) (Proc.devRef .tc main_v30) = _
  after_results
theorem V_v31 (c : Dev nD) : (V m c main_v31 : S144x1.Idx → EReal) = transpose S144x1 [1, 0] (m ((c.tc : Thread nD τ).loc main_arg12)) transposes_S1x144_S144x1_1_0 := by
  show StableHlo.after hostOps0 (fun b => m (c, b)) (Proc.devRef .tc main_v31) = _
  after_results
theorem V_v32 (c : Dev nD) : (V m c main_v32 : S1x64.Idx → EReal) = shapeCast S1x64 (m ((c.tc : Thread nD τ).loc main_arg7)) shapeCasts_S64_S1x64 := by
  show StableHlo.after hostOps0 (fun b => m (c, b)) (Proc.devRef .tc main_v32) = _
  after_results
  rfl
theorem V_v33 (c : Dev nD) : (V m c main_v33 : S1x32.Idx → EReal) = shapeCast S1x32 (m ((c.tc : Thread nD τ).loc main_arg9)) shapeCasts_S32_S1x32 := by
  show StableHlo.after hostOps0 (fun b => m (c, b)) (Proc.devRef .tc main_v33) = _
  after_results
  rfl
theorem V_v34 (c : Dev nD) : (V m c main_v34 : S1x16.Idx → EReal) = shapeCast S1x16 (m ((c.tc : Thread nD τ).loc main_arg11)) shapeCasts_S16_S1x16 := by
  show StableHlo.after hostOps0 (fun b => m (c, b)) (Proc.devRef .tc main_v34) = _
  after_results
  rfl
theorem V_v35 (c : Dev nD) : (V m c main_v35 : S1x1.Idx → EReal) = shapeCast S1x1 (m ((c.tc : Thread nD τ).loc main_arg13)) shapeCasts_S1_S1x1 := by
  show StableHlo.after hostOps0 (fun b => m (c, b)) (Proc.devRef .tc main_v35) = _
  after_results
  rfl

/-! ## The result -/

/-- The kernel's result is the scores of the gathered rows under the transposed weights. -/
theorem result_eq (c : Dev nD) :
    shapeCast S512x1024 (blockScores m c) shapeCasts_S512x1024x1_S512x1024
      = scores (userRows (m ((c.tc : Thread nD τ).loc main_arg2)) (m ((c.tc : Thread nD τ).loc main_arg0))) (itemRows (m ((c.tc : Thread nD τ).loc main_arg3)) (m ((c.tc : Thread nD τ).loc main_arg1)))
          (userRows (m ((c.tc : Thread nD τ).loc main_arg4)) (m ((c.tc : Thread nD τ).loc main_arg0))) (itemRows (m ((c.tc : Thread nD τ).loc main_arg5)) (m ((c.tc : Thread nD τ).loc main_arg1)))
          (transpose S128x64 [1, 0] (m ((c.tc : Thread nD τ).loc main_arg6)) transposes_S64x128_S128x64_1_0) (m ((c.tc : Thread nD τ).loc main_arg7))
          (transpose S64x32 [1, 0] (m ((c.tc : Thread nD τ).loc main_arg8)) transposes_S32x64_S64x32_1_0) (m ((c.tc : Thread nD τ).loc main_arg9))
          (transpose S32x16 [1, 0] (m ((c.tc : Thread nD τ).loc main_arg10)) transposes_S16x32_S32x16_1_0) (m ((c.tc : Thread nD τ).loc main_arg11))
          (transpose S144x1 [1, 0] (m ((c.tc : Thread nD τ).loc main_arg12)) transposes_S1x144_S144x1_1_0) (m ((c.tc : Thread nD τ).loc main_arg13)) := by
  funext i
  obtain ⟨u, it, rfl⟩ : ∃ (u : Fin 512) (it : Fin 1024), i = ix2 u it := ⟨i 0, i 1, eq_ix2 i⟩
  rw [dropUnit_apply _ shapeCasts_S512x1024x1_S512x1024 u it]
  unfold blockScores scores
  rw [V_v6 m c, V_v13 m c, V_v20 m c, V_v27 m c, V_v28 m c, V_v29 m c, V_v30 m c, V_v31 m c, V_v32 m c, V_v33 m c, V_v34 m c, V_v35 m c,
    row0_cast, row0_cast, row0_cast, row0_cast]

end Cert.KernelIdeal.ScoreValue

end
-- ==== Proof.RefValue.lean ====
/-
  The reference's result, one entry at a time.

  The reference gathers the embedding rows, lists all 512 · 1024 pairs (pair `(u, i)` at row `u · 1024 + i`), runs
  the dense layers on the whole list and reshapes the one-column result to `512 × 1024`.  So entry `(u, i)` is the
  score of gathered user row `u` and gathered item row `i`.
-/
import proofs.«123985_j42992622633213_1_alg».proof.Proof.Gen.ReferenceIdeal.Run
import proofs.«123985_j42992622633213_1_alg».proof.Proof.Cross

set_option maxRecDepth 16384

noncomputable section

open scoped BigOperators

namespace Cert.ReferenceIdeal.ScoreValue

open Cert.ReferenceIdeal Cert.ReferenceIdeal.Gen Cert.ReferenceIdeal.Value Idealize.ShloMosaic Idealize.ShloMosaic.TcCoe Idealize.SL.Sem
open Idealize.ShloMosaic.ValueIdx RowOps CrossMlp

/-- The rows of a user table the ids select (a negative id counted from the table's end, as the program spells it). -/
abbrev userRows (tab : FVec Ideal S100000x64 .f32) (ids : IVec S512 32) : FVec Ideal S512x64 .f32 :=
  Host.gather gather_S100000x64_S512x1_S512x64_1_0_n_n_0_1_164 tab
    (broadcastInDim S512x1 ![0] bcast_S512_S512x1_0
      (select (cmpi .slt ids (broadcastInDim S512 ![] bcast_S_S512 (constantI S_ 32 0#32)))
        (addi ids (broadcastInDim S512 ![] bcast_S_S512 (constantI S_ 32 100000#32))) ids))

/-- The rows of an item table the ids select. -/
abbrev itemRows (tab : FVec Ideal S50000x64 .f32) (ids : IVec S1024 32) : FVec Ideal S1024x64 .f32 :=
  Host.gather gather_S50000x64_S1024x1_S1024x64_1_0_n_n_0_1_164 tab
    (broadcastInDim S1024x1 ![0] bcast_S1024_S1024x1_0
      (select (cmpi .slt ids (broadcastInDim S1024 ![] bcast_S_S1024 (constantI S_ 32 0#32)))
        (addi ids (broadcastInDim S1024 ![] bcast_S_S1024 (constantI S_ 32 50000#32))) ids))

section Rows
variable {R K H : ℕ}

/-- A host layer of an array whose row `n` is `x`: row `n` of the result is the layer of `x`. -/
theorem layer_row (d : DotDims ⟨2, ![R, K]⟩ ⟨2, ![K, H]⟩ ⟨2, ![R, H]⟩) (hd : d = DotDims.plain R K H)
    (z : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (d0 : Fin 0 → Fin 2) (hb : (⟨0, ![]⟩ : Shape).BroadcastsInDim ⟨2, ![R, H]⟩ d0) (n : Fin R) (x : Fin K → EReal)
    (hz : (fun k => z (ix2 n k)) = x) :
    (fun h : Fin H => maximumf (addf (Host.dotGeneral d none z W)
        (broadcastInDim ⟨2, ![R, H]⟩ ![0, 1] h2 (broadcastInDim ⟨2, ![1, H]⟩ ![1] h1 b)))
        (broadcastInDim ⟨2, ![R, H]⟩ d0 hb (constant (F := Ideal) ⟨0, ![]⟩ .f32 0x00000000#32)) (ix2 n h))
      = layer W (vec b) x := by
  subst hz
  exact layer_host_apply d hd z W b h1 h2 d0 hb n

/-- A concatenation along the columns of arrays whose rows `n` are `x` and `y`: row `n` is `x` then `y`. -/
theorem cat_row {A B C : ℕ} (u : (⟨2, ![R, A]⟩ : Shape).Idx → EReal) (v : (⟨2, ![R, B]⟩ : Shape).Idx → EReal)
    (hc : Shape.Concatenates [(⟨2, ![R, A]⟩ : Shape), ⟨2, ![R, B]⟩] ⟨2, ![R, C]⟩ 1) (hC : C = A + B) (n : Fin R)
    (x : Fin A → EReal) (y : Fin B → EReal) (hx : (fun k => u (ix2 n k)) = x) (hy : (fun k => v (ix2 n k)) = y) :
    (fun j : Fin C => concatenate ⟨2, ![R, C]⟩ 1 [⟨⟨2, ![R, A]⟩, u⟩, ⟨⟨2, ![R, B]⟩, v⟩] hc (ix2 n j)) = cat2 C x y := by
  subst hx hy
  exact funext fun j => cat2_apply u v hc hC n j

end Rows

/-- A one-column list of `A · B` entries reshaped to `A × B`: entry `(a, b)` is entry `a · B + b` of the list. -/
theorem unlist_apply {A B N : ℕ} {α : Type} (v : (⟨2, ![N, 1]⟩ : Shape).Idx → α) (hs : (⟨2, ![N, 1]⟩ : Shape).ShapeCasts ⟨2, ![A, B]⟩)
    (a : Fin A) (b : Fin B) (n : Fin N) (hn : n.val = a.val * B + b.val) :
    shapeCast ⟨2, ![A, B]⟩ v hs (ix2 a b) = v (ix2 n (0 : Fin 1)) :=
  shapeCast_apply v hs _ _ (by
    rw [Shape.rowMajor_val_two, Shape.rowMajor_val_two]
    show n.val * 1 + 0 = a.val * B + b.val
    rw [hn, Nat.mul_one, Nat.add_zero])

/-- The reference's result is the scores of the gathered rows under the transposed weights. -/
theorem result_eq (m : (ℓ : Loc nD τ sig) → Buf (Elt Ideal) ℓ) (c : Dev nD) :
    (res_main_v65 (F := Ideal) m c : S512x1024.Idx → EReal)
      = scores (userRows (m ((c.tc : Thread nD τ).loc main_arg2)) (m ((c.tc : Thread nD τ).loc main_arg0)))
          (itemRows (m ((c.tc : Thread nD τ).loc main_arg3)) (m ((c.tc : Thread nD τ).loc main_arg1)))
          (userRows (m ((c.tc : Thread nD τ).loc main_arg4)) (m ((c.tc : Thread nD τ).loc main_arg0)))
          (itemRows (m ((c.tc : Thread nD τ).loc main_arg5)) (m ((c.tc : Thread nD τ).loc main_arg1)))
          (transpose S128x64 [1, 0] (m ((c.tc : Thread nD τ).loc main_arg6)) transposes_S64x128_S128x64_1_0)
          (m ((c.tc : Thread nD τ).loc main_arg7))
          (transpose S64x32 [1, 0] (m ((c.tc : Thread nD τ).loc main_arg8)) transposes_S32x64_S64x32_1_0)
          (m ((c.tc : Thread nD τ).loc main_arg9))
          (transpose S32x16 [1, 0] (m ((c.tc : Thread nD τ).loc main_arg10)) transposes_S16x32_S32x16_1_0)
          (m ((c.tc : Thread nD τ).loc main_arg11))
          (transpose S144x1 [1, 0] (m ((c.tc : Thread nD τ).loc main_arg12)) transposes_S1x144_S144x1_1_0)
          (m ((c.tc : Thread nD τ).loc main_arg13)) := by
  funext i
  obtain ⟨u, it, rfl⟩ : ∃ (u : Fin 512) (it : Fin 1024), i = ix2 u it := ⟨i 0, i 1, eq_ix2 i⟩
  have hn : (⟨u.val * 1024 + it.val, by have := u.isLt; have := it.isLt; omega⟩ : Fin 524288).val = u.val * 1024 + it.val := rfl
  unfold res_main_v65
  show shapeCast S512x1024 _ shapeCasts_S524288x1_S512x1024 (ix2 u it) = _
  rw [unlist_apply _ shapeCasts_S524288x1_S512x1024 u it _ hn]
  unfold scores score
  exact congrFun (layer_row dot_S524288x144_S144x1_S524288x1_1_0_0_1_n_n rfl _ _ _ bcast_S1_S1x1_1 bcast_S1x1_S524288x1_0_1 _ bcast_S_S524288x1 _ _
    (cat_row _ _ concatenates_S524288x128_S524288x16_S524288x144_d1 rfl _ _ _
      (pairs_host_apply _ _ bcast_S512x64_S512x1x64_0_2 bcast_S512x1x64_S512x1024x64_0_1_2 bcast_S1024x64_S1x1024x64_1_2
        bcast_S1x1024x64_S512x1024x64_0_1_2 concatenates_S512x1024x64_S512x1024x64_S512x1024x128_d2 rfl
        shapeCasts_S512x1024x128_S524288x128 u it _ hn)
      (layer_row dot_S524288x32_S32x16_S524288x16_1_0_0_1_n_n rfl _ _ _ bcast_S16_S1x16_1 bcast_S1x16_S524288x16_0_1 _ bcast_S_S524288x16 _ _
        (layer_row dot_S524288x64_S64x32_S524288x32_1_0_0_1_n_n rfl _ _ _ bcast_S32_S1x32_1 bcast_S1x32_S524288x32_0_1 _ bcast_S_S524288x32 _ _
          (layer_row dot_S524288x128_S128x64_S524288x64_1_0_0_1_n_n rfl _ _ _ bcast_S64_S1x64_1 bcast_S1x64_S524288x64_0_1 _ bcast_S_S524288x64 _ _
            (pairs_host_apply _ _ bcast_S512x64_S512x1x64_0_2 bcast_S512x1x64_S512x1024x64_0_1_2 bcast_S1024x64_S1x1024x64_1_2
              bcast_S1x1024x64_S512x1024x64_0_1_2 concatenates_S512x1024x64_S512x1024x64_S512x1024x128_d2 rfl
              shapeCasts_S512x1024x128_S524288x128 u it _ hn)))))) 0

end Cert.ReferenceIdeal.ScoreValue

end
-- ==== Proof.lean ====
/-
  A neural-collaborative-filtering score for every (user, item) pair: the kernel against its reference.

  Both programs gather 512 user rows and 1024 item rows from two pairs of embedding tables, and give every pair
  `(u, i)` the score
      relu (Wo · [umf ‖ imf ‖ h₃] + bo),   h₃ = relu (W4 · relu (W2 · relu (W1 · [umlp ‖ imlp] + b1) + b2) + b4),
  where `‖` lays rows end to end.  The reference lists all 512 · 1024 pairs and runs each layer as one matrix
  product; the kernel does the same on 128 × 128 tiles of pairs, one tile per grid point, with the operands
  narrowed to bf16 on the way.  On the extended reals a narrowing is the identity and a matrix product is its sum
  over the contracted index, whatever the tiling, so entry `(u, i)` of either result is the same expression in
  row `u` of the gathered user rows, row `i` of the gathered item rows and the weights (`CrossMlp.scores`).  No
  law of arithmetic is used beyond that: the two sides are the same sums of the same products, and finiteness of
  the inputs is not needed.

  The kernel's run and its value: the generated frame, whose output block is read one entry at a time
  (`KernelBlock`), the blocks assembled into the array and the host's lines around the region read
  (`KernelValue`).  The reference's value: its generated run, read at an entry (`RefValue`).
-/
import proofs.«123985_j42992622633213_1_alg».proof.Defs
import proofs.«123985_j42992622633213_1_alg».proof.Proof.Gen.Kernel
import proofs.«123985_j42992622633213_1_alg».proof.Proof.Gen.Kernel.Skeleton
import proofs.«123985_j42992622633213_1_alg».proof.Proof.Gen.Kernel.Launch
import proofs.«123985_j42992622633213_1_alg».proof.Proof.Gen.Kernel.Points
import proofs.«123985_j42992622633213_1_alg».proof.Proof.Gen.Kernel.Frame
import proofs.«123985_j42992622633213_1_alg».proof.Proof.Gen.KernelIdeal
import proofs.«123985_j42992622633213_1_alg».proof.Proof.Gen.KernelIdeal.Skeleton
import proofs.«123985_j42992622633213_1_alg».proof.Proof.Gen.KernelIdeal.Launch
import proofs.«123985_j42992622633213_1_alg».proof.Proof.Gen.KernelIdeal.Points
import proofs.«123985_j42992622633213_1_alg».proof.Proof.Gen.KernelIdeal.Frame
import proofs.«123985_j42992622633213_1_alg».proof.Proof.Gen.ReferenceIdeal
import proofs.«123985_j42992622633213_1_alg».proof.Proof.Gen.Pre_finite_inputs
import proofs.«123985_j42992622633213_1_alg».proof.Proof.Gen.ReferenceIdeal.Run
import proofs.«123985_j42992622633213_1_alg».proof.Proof.KernelValue
import proofs.«123985_j42992622633213_1_alg».proof.Proof.RefValue
import Idealize.ShloMosaic.Adequacy
import Idealize.ShloMosaic.Init

set_option maxRecDepth 16384

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the scores of the gathered rows. -/
theorem algebraic : Cert.algebraic_KernelIdeal_ReferenceIdeal := by
  intro m ρ m' ρ' _ hagree
  refine ⟨_, Cert.KernelIdeal.ScoreValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  refine (Cert.ReferenceIdeal.ScoreValue.result_eq m' c).trans ?_
  refine Eq.trans ?_ (Cert.KernelIdeal.ScoreValue.result_eq m c).symm
  rw [a0, a1, a2, a3, a4, a5, a6, a7, a8, a9, a10, a11, a12, a13]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
